-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x512x2 : Shape := ⟨3, ![11008, 512, 2]⟩
abbrev S2x256x1x8 : Shape := ⟨4, ![2, 256, 1, 8]⟩
abbrev S11008x1x1x1 : Shape := ⟨4, ![11008, 1, 1, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S2x256x1x8 : S_.BroadcastsInDim S2x256x1x8 (![] : Fin 0 → Fin S2x256x1x8.rank)
  reducesTo_S2x256x1x8_S_d0_1_2_3 : S2x256x1x8.ReducesTo [0, 1, 2, 3] S_
  bcast_S_S11008x1x1x1 : S_.BroadcastsInDim S11008x1x1x1 (![] : Fin 0 → Fin S11008x1x1x1.rank)
  reducesTo_S11008x1x1x1_S_d0_1_2_3 : S11008x1x1x1.ReducesTo [0, 1, 2, 3] S_
  bcast_S_S11008 : S_.BroadcastsInDim S11008 (![] : Fin 0 → Fin S11008.rank)
  reducesTo_S11008_S_d0 : S11008.ReducesTo [0] S_
  bcast_S_S11008x512x2 : S_.BroadcastsInDim S11008x512x2 (![] : Fin 0 → Fin S11008x512x2.rank)
  reducesTo_S11008x512x2_S_d0_1_2 : S11008x512x2.ReducesTo [0, 1, 2] S_

variable [Facts]

def fn_part1 {F : FTy → Type} [FloatOps F] (main_arg1 : IVec S11008x512x2 32) (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  let main_c_6 : IVec S_ 32 := constantI S_ 32 0#32
  let main_v19 : IVec S11008x512x2 32 := broadcastInDim S11008x512x2 ![] bcast_S_S11008x512x2 main_c_6
  let main_v20 : IVec S11008x512x2 1 := cmpi .sge main_arg1 main_v19
  let main_c_7 : IVec S_ 32 := constantI S_ 32 256#32
  let main_v21 : IVec S11008x512x2 32 := broadcastInDim S11008x512x2 ![] bcast_S_S11008x512x2 main_c_7
  let main_v22 : IVec S11008x512x2 1 := cmpi .slt main_arg1 main_v21
  let main_v23 : IVec S11008x512x2 1 := andi main_v20 main_v22
  let main_c_8 : IVec S_ 1 := constantI S_ 1 1#1
  let main_v24 : IVec S_ 1 := (fun x v => Host.reduce IntOp.andi x v reducesTo_S11008x512x2_S_d0_1_2 h_S_) main_v23 main_c_8
  let main_v25 : IVec S_ 1 := andi main_v18 main_v24
  main_v25

def fn {F : FTy → Type} [FloatOps F] (main_arg0 : FVec F S4x2048x4096 .f32) (main_arg1 : IVec S11008x512x2 32) (main_arg2 : FVec F S2x256x1x8 .f32) (main_arg3 : FVec F S11008x1x1x1 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S2x256x1x8 .f32 := Host.absf main_arg2
  let main_cst_0 : FVec F S_ .f32 := constant S_ .f32 0x7F800000#32
  let main_v5 : FVec F S2x256x1x8 .f32 := broadcastInDim S2x256x1x8 ![] bcast_S_S2x256x1x8 main_cst_0
  let main_v6 : IVec S2x256x1x8 1 := cmpf .olt main_v4 main_v5
  let main_c_1 : IVec S_ 1 := constantI S_ 1 1#1
  let main_v7 : IVec S_ 1 := (fun x v => Host.reduce IntOp.andi x v reducesTo_S2x256x1x8_S_d0_1_2_3 h_S_) main_v6 main_c_1
  let main_v8 : IVec S_ 1 := andi main_v3 main_v7
  let main_v9 : FVec F S11008x1x1x1 .f32 := Host.absf main_arg3
  let main_cst_2 : FVec F S_ .f32 := constant S_ .f32 0x7F800000#32
  let main_v10 : FVec F S11008x1x1x1 .f32 := broadcastInDim S11008x1x1x1 ![] bcast_S_S11008x1x1x1 main_cst_2
  let main_v11 : IVec S11008x1x1x1 1 := cmpf .olt main_v9 main_v10
  let main_c_3 : IVec S_ 1 := constantI S_ 1 1#1
  let main_v12 : IVec S_ 1 := (fun x v => Host.reduce IntOp.andi x v reducesTo_S11008x1x1x1_S_d0_1_2_3 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_arg1 main_v13 main_v16
-- ==== Kernel.lean ====
abbrev S4x2048x4096 : Shape := ⟨3, ![4, 2048, 4096]⟩
abbrev S11008x512x2 : Shape := ⟨3, ![11008, 512, 2]⟩
abbrev S2x256x1x8 : Shape := ⟨4, ![2, 256, 1, 8]⟩
abbrev S11008x1x1x1 : Shape := ⟨4, ![11008, 1, 1, 1]⟩
abbrev S11008 : Shape := ⟨1, ![11008]⟩
abbrev S_ : Shape := ⟨0, ![]⟩
abbrev S11008x512x1x8 : Shape := ⟨4, ![11008, 512, 1, 8]⟩
abbrev S1x256x1x8 : Shape := ⟨4, ![1, 256, 1, 8]⟩
abbrev S256x1x8 : Shape := ⟨3, ![256, 1, 8]⟩
abbrev S11008x512x1 : Shape := ⟨3, ![11008, 512, 1]⟩
abbrev S11008x512 : Shape := ⟨2, ![11008, 512]⟩
abbrev S1 : Shape := ⟨1, ![1]⟩
abbrev S1x1x1 : Shape := ⟨3, ![1, 1, 1]⟩
abbrev S11008x1x512x8 : Shape := ⟨4, ![11008, 1, 512, 8]⟩
abbrev S11008x4096 : Shape := ⟨2, ![11008, 4096]⟩
abbrev S8192x4096 : Shape := ⟨2, ![8192, 4096]⟩
abbrev S1x11008 : Shape := ⟨2, ![1, 11008]⟩
abbrev S8192x11008 : Shape := ⟨2, ![8192, 11008]⟩
abbrev S1024x512 : Shape := ⟨2, ![1024, 512]⟩
abbrev S5504x512 : Shape := ⟨2, ![5504, 512]⟩
abbrev S1x5504 : Shape := ⟨2, ![1, 5504]⟩
abbrev S1024x5504 : Shape := ⟨2, ![1024, 5504]⟩
abbrev S4x2048x11008 : Shape := ⟨3, ![4, 2048, 11008]⟩

abbrev nBuf : Space → Nat
  | .hbm => 73
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x512x2, .i32⟩
  | .hbm, ⟨2, _⟩ => ⟨S2x256x1x8, .f32⟩
  | .hbm, ⟨3, _⟩ => ⟨S11008x1x1x1, .f32⟩
  | .hbm, ⟨4, _⟩ => ⟨S11008, .f32⟩
  | .hbm, ⟨5, _⟩ => ⟨S_, .f32⟩
  | .hbm, ⟨6, _⟩ => ⟨S11008x512x1x8, .f32⟩
  | .hbm, ⟨7, _⟩ => ⟨S1x256x1x8, .f32⟩
  | .hbm, ⟨8, _⟩ => ⟨S256x1x8, .f32⟩
  | .hbm, ⟨9, _⟩ => ⟨S11008x512x1, .i32⟩
  | .hbm, ⟨10, _⟩ => ⟨S11008x512, .i32⟩
  | .hbm, ⟨11, _⟩ => ⟨S_, .i32⟩
  | .hbm, ⟨12, _⟩ => ⟨S11008x512, .i32⟩
  | .hbm, ⟨13, _⟩ => ⟨S11008x512, .i1⟩
  | .hbm, ⟨14, _⟩ => ⟨S_, .i32⟩
  | .hbm, ⟨15, _⟩ => ⟨S11008x512, .i32⟩
  | .hbm, ⟨16, _⟩ => ⟨S11008x512, .i32⟩
  | .hbm, ⟨17, _⟩ => ⟨S11008x512, .i32⟩
  | .hbm, ⟨18, _⟩ => ⟨S11008x512x1, .i32⟩
  | .hbm, ⟨19, _⟩ => ⟨S1, .i32⟩
  | .hbm, ⟨20, _⟩ => ⟨S_, .i32⟩
  | .hbm, ⟨21, _⟩ => ⟨S11008x512x1, .i32⟩
  | .hbm, ⟨22, _⟩ => ⟨S11008x512x1, .i1⟩
  | .hbm, ⟨23, _⟩ => ⟨S1x1x1, .i32⟩
  | .hbm, ⟨24, _⟩ => ⟨S11008x512x1, .i32⟩
  | .hbm, ⟨25, _⟩ => ⟨S11008x512x1, .i1⟩
  | .hbm, ⟨26, _⟩ => ⟨S11008x512x1, .i1⟩
  | .hbm, ⟨27, _⟩ => ⟨S_, .i1⟩
  | .hbm, ⟨28, _⟩ => ⟨S11008x512, .i1⟩
  | .hbm, ⟨29, _⟩ => ⟨S11008x512x1x8, .f32⟩
  | .hbm, ⟨30, _⟩ => ⟨S11008x512x1x8, .i1⟩
  | .hbm, ⟨31, _⟩ => ⟨S_, .f32⟩
  | .hbm, ⟨32, _⟩ => ⟨S11008x512x1x8, .f32⟩
  | .hbm, ⟨33, _⟩ => ⟨S11008x512x1x8, .f32⟩
  | .hbm, ⟨34, _⟩ => ⟨S11008x512x1x8, .f32⟩
  | .hbm, ⟨35, _⟩ => ⟨S1x256x1x8, .f32⟩
  | .hbm, ⟨36, _⟩ => ⟨S256x1x8, .f32⟩
  | .hbm, ⟨37, _⟩ => ⟨S11008x512x1, .i32⟩
  | .hbm, ⟨38, _⟩ => ⟨S11008x512, .i32⟩
  | .hbm, ⟨39, _⟩ => ⟨S_, .i32⟩
  | .hbm, ⟨40, _⟩ => ⟨S11008x512, .i32⟩
  | .hbm, ⟨41, _⟩ => ⟨S11008x512, .i1⟩
  | .hbm, ⟨42, _⟩ => ⟨S_, .i32⟩
  | .hbm, ⟨43, _⟩ => ⟨S11008x512, .i32⟩
  | .hbm, ⟨44, _⟩ => ⟨S11008x512, .i32⟩
  | .hbm, ⟨45, _⟩ => ⟨S11008x512, .i32⟩
  | .hbm, ⟨46, _⟩ => ⟨S11008x512x1, .i32⟩
  | .hbm, ⟨47, _⟩ => ⟨S1, .i32⟩
  | .hbm, ⟨48, _⟩ => ⟨S_, .i32⟩
  | .hbm, ⟨49, _⟩ => ⟨S11008x512x1, .i32⟩
  | .hbm, ⟨50, _⟩ => ⟨S11008x512x1, .i1⟩
  | .hbm, ⟨51, _⟩ => ⟨S1x1x1, .i32⟩
  | .hbm, ⟨52, _⟩ => ⟨S11008x512x1, .i32⟩
  | .hbm, ⟨53, _⟩ => ⟨S11008x512x1, .i1⟩
  | .hbm, ⟨54, _⟩ => ⟨S11008x512x1, .i1⟩
  | .hbm, ⟨55, _⟩ => ⟨S_, .i1⟩
  | .hbm, ⟨56, _⟩ => ⟨S11008x512, .i1⟩
  | .hbm, ⟨57, _⟩ => ⟨S11008x512x1x8, .f32⟩
  | .hbm, ⟨58, _⟩ => ⟨S11008x512x1x8, .i1⟩
  | .hbm, ⟨59, _⟩ => ⟨S_, .f32⟩
  | .hbm, ⟨60, _⟩ => ⟨S11008x512x1x8, .f32⟩
  | .hbm, ⟨61, _⟩ => ⟨S11008x512x1x8, .f32⟩
  | .hbm, ⟨62, _⟩ => ⟨S11008x512x1x8, .f32⟩
  | .hbm, ⟨63, _⟩ => ⟨S11008x512x1x8, .f32⟩
  | .hbm, ⟨64, _⟩ => ⟨S11008x512x1x8, .f32⟩
  | .hbm, ⟨65, _⟩ => ⟨S11008x1x512x8, .f32⟩
  | .hbm, ⟨66, _⟩ => ⟨S11008x4096, .f32⟩
  | .hbm, ⟨67, _⟩ => ⟨S11008x4096, .bf16⟩
  | .hbm, ⟨68, _⟩ => ⟨S8192x4096, .f32⟩
  | .hbm, ⟨69, _⟩ => ⟨S8192x4096, .bf16⟩
  | .hbm, ⟨70, _⟩ => ⟨S1x11008, .f32⟩
  | .hbm, ⟨71, _⟩ => ⟨S8192x11008, .f32⟩
  | .hbm, ⟨72, _⟩ => ⟨S4x2048x11008, .f32⟩
  | .local _ .vmem, ⟨0, _⟩ => ⟨S1024x512, .bf16⟩
  | .local _ .vmem, ⟨1, _⟩ => ⟨S1024x512, .bf16⟩
  | .local _ .vmem, ⟨2, _⟩ => ⟨S5504x512, .bf16⟩
  | .local _ .vmem, ⟨3, _⟩ => ⟨S5504x512, .bf16⟩
  | .local _ .vmem, ⟨4, _⟩ => ⟨S1x5504, .f32⟩
  | .local _ .vmem, ⟨5, _⟩ => ⟨S1x5504, .f32⟩
  | .local _ .vmem, ⟨6, _⟩ => ⟨S1024x5504, .f32⟩
  | .local _ .vmem, ⟨7, _⟩ => ⟨S1024x5504, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S11008x512x1x8 : S_.BroadcastsInDim S11008x512x1x8 (![] : Fin 0 → Fin S11008x512x1x8.rank)
  slices_S2x256x1x8_S1x256x1x8_0_0_0_0 : S2x256x1x8.Slices ![0, 0, 0, 0] S1x256x1x8
  shapeCasts_S1x256x1x8_S256x1x8 : S1x256x1x8.ShapeCasts S256x1x8
  slices_S11008x512x2_S11008x512x1_0_0_0 : S11008x512x2.Slices ![0, 0, 0] S11008x512x1
  shapeCasts_S11008x512x1_S11008x512 : S11008x512x1.ShapeCasts S11008x512
  bcast_S_S11008x512 : S_.BroadcastsInDim S11008x512 (![] : Fin 0 → Fin S11008x512.rank)
  bcast_S11008x512_S11008x512x1_0_1 : S11008x512.BroadcastsInDim S11008x512x1 (![0, 1] : Fin 2 → Fin S11008x512x1.rank)
  bcast_S_S11008x512x1 : S_.BroadcastsInDim S11008x512x1 (![] : Fin 0 → Fin S11008x512x1.rank)
  bcast_S1_S1x1x1_2 : S1.BroadcastsInDim S1x1x1 (![2] : Fin 1 → Fin S1x1x1.rank)
  bcast_S1x1x1_S11008x512x1_0_1_2 : S1x1x1.BroadcastsInDim S11008x512x1 (![0, 1, 2] : Fin 3 → Fin S11008x512x1.rank)
  reducesTo_S11008x512x1_S11008x512_d2 : S11008x512x1.ReducesTo [2] S11008x512
  h_S_ : 0 < S_.numel
  bcast_S11008x512_S11008x512x1x8_0_1 : S11008x512.BroadcastsInDim S11008x512x1x8 (![0, 1] : Fin 2 → Fin S11008x512x1x8.rank)
  slices_S2x256x1x8_S1x256x1x8_1_0_0_0 : S2x256x1x8.Slices ![1, 0, 0, 0] S1x256x1x8
  slices_S11008x512x2_S11008x512x1_0_0_1 : S11008x512x2.Slices ![0, 0, 1] S11008x512x1
  bcast_S11008x1x1x1_S11008x512x1x8_0_1_2_3 : S11008x1x1x1.BroadcastsInDim S11008x512x1x8 (![0, 1, 2, 3] : Fin 4 → Fin S11008x512x1x8.rank)
  transposes_S11008x512x1x8_S11008x1x512x8_0_2_1_3 : S11008x512x1x8.Transposes [0, 2, 1, 3] S11008x1x512x8
  shapeCasts_S11008x1x512x8_S11008x4096 : S11008x1x512x8.ShapeCasts S11008x4096
  bitsLt_bf16_f32 : FTy.bits .bf16 < FTy.bits .f32
  shapeCasts_S4x2048x4096_S8192x4096 : S4x2048x4096.ShapeCasts S8192x4096
  shapeCasts_S11008_S1x11008 : S11008.ShapeCasts S1x11008
  inb_S1024x5504_S1024x5504_0_0 : ∀ a, (![0, 0] : Fin 2 → Nat) a + S1024x5504.size a ≤ S1024x5504.size a
  h_S1024x5504 : 0 < S1024x5504.numel
  shapeCasts_S1024x5504_S1024x5504 : S1024x5504.ShapeCasts S1024x5504
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S5504x512_S5504x512_0_0 : ∀ a, (![0, 0] : Fin 2 → Nat) a + S5504x512.size a ≤ S5504x512.size a
  h_S5504x512 : 0 < S5504x512.numel
  shapeCasts_S5504x512_S5504x512 : S5504x512.ShapeCasts S5504x512
  inb_S1x5504_S1x5504_0_0 : ∀ a, (![0, 0] : Fin 2 → Nat) a + S1x5504.size a ≤ S1x5504.size a
  h_S1x5504 : 0 < S1x5504.numel
  shapeCasts_S1x5504_S1x5504 : S1x5504.ShapeCasts S1x5504
  broadcasts_S1x5504_S1024x5504 : S1x5504.Broadcasts S1024x5504
  shapeCasts_S8192x11008_S4x2048x11008 : S8192x11008.ShapeCasts S4x2048x11008
  gather_S256x1x8_S11008x512x1_S11008x512x1x8_23_0_n_n_0_2_118_wf : GatherDims.WF S256x1x8 S11008x512x1 S11008x512x1x8 [2, 3] [0] [] [0] [] 2 ![1, 1, 8]
  dot_S1024x512_S5504x512_S1024x5504_1_1_0_0_n_n_wf : DotDims.WF S1024x512 S5504x512 S1024x5504 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5504x512.size a ≤ S11008x4096.size a
  hwx0_1 : ∀ i : grid0.Coords, EltTy.bits .bf16 = 32 ∨ (Rect.block (s := S11008x4096) S5504x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5504.size a ≤ S1x11008.size a
  hwx0_2 : ∀ i : grid0.Coords, EltTy.bits .f32 = 32 ∨ (Rect.block (s := S1x11008) S1x5504.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x5504.size a ≤ S8192x11008.size a
  hwx0_3 : ∀ i : grid0.Coords, EltTy.bits .f32 = 32 ∨ (Rect.block (s := S8192x11008) S1024x5504.size (cc0_transform_3 i) (hinb0_3 i)).WholeWords (EltTy.packing .f32)

variable [Facts₀]

def gather_S256x1x8_S11008x512x1_S11008x512x1x8_23_0_n_n_0_2_118 : GatherDims S256x1x8 S11008x512x1 S11008x512x1x8 where
  offsetDims := [2, 3]
  collapsedSliceDims := [0]
  operandBatchingDims := []
  startIndicesBatchingDims := []
  startIndexMap := [0]
  indexVectorDim := 2
  sliceSizes := ![1, 1, 8]
  wf := gather_S256x1x8_S11008x512x1_S11008x512x1x8_23_0_n_n_0_2_118_wf
def dot_S1024x512_S5504x512_S1024x5504_1_1_0_0_n_n : DotDims S1024x512 S5504x512 S1024x5504 where
  lhsContracting := [1]
  rhsContracting := [1]
  lhsNonContracting := [0]
  rhsNonContracting := [0]
  lhsBatch := []
  rhsBatch := []
  wf := dot_S1024x512_S5504x512_S1024x5504_1_1_0_0_n_n_wf

abbrev win0_0 : Pipeline.Window sig grid0 :=
  Pipeline.Window.ofSpec (Memref.whole main_v19) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5504x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x5504.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x5504.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x512x2 : Shape := ⟨3, ![11008, 512, 2]⟩
abbrev S2x256x1x8 : Shape := ⟨4, ![2, 256, 1, 8]⟩
abbrev S11008x1x1x1 : Shape := ⟨4, ![11008, 1, 1, 1]⟩
abbrev S11008 : Shape := ⟨1, ![11008]⟩
abbrev S2 : Shape := ⟨1, ![2]⟩
abbrev S1x1x2 : Shape := ⟨3, ![1, 1, 2]⟩
abbrev S_ : Shape := ⟨0, ![]⟩
abbrev S11008x512x2x1 : Shape := ⟨4, ![11008, 512, 2, 1]⟩
abbrev S11008x512x2x2 : Shape := ⟨4, ![11008, 512, 2, 2]⟩
abbrev S11008x512x2x1x8 : Shape := ⟨5, ![11008, 512, 2, 1, 8]⟩
abbrev S11008x512x1x8 : Shape := ⟨4, ![11008, 512, 1, 8]⟩
abbrev S11008x1x512x8 : Shape := ⟨4, ![11008, 1, 512, 8]⟩
abbrev S11008x4096 : Shape := ⟨2, ![11008, 4096]⟩
abbrev S4x2048x11008 : Shape := ⟨3, ![4, 2048, 11008]⟩
abbrev S1x1x11008 : Shape := ⟨3, ![1, 1, 11008]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x512x2, .i32⟩
  | .hbm, ⟨2, _⟩ => ⟨S2x256x1x8, .f32⟩
  | .hbm, ⟨3, _⟩ => ⟨S11008x1x1x1, .f32⟩
  | .hbm, ⟨4, _⟩ => ⟨S11008, .f32⟩
  | .hbm, ⟨5, _⟩ => ⟨S2, .i32⟩
  | .hbm, ⟨6, _⟩ => ⟨S1x1x2, .i32⟩
  | .hbm, ⟨7, _⟩ => ⟨S_, .i32⟩
  | .hbm, ⟨8, _⟩ => ⟨S1x1x2, .i32⟩
  | .hbm, ⟨9, _⟩ => ⟨S1x1x2, .i1⟩
  | .hbm, ⟨10, _⟩ => ⟨S_, .i32⟩
  | .hbm, ⟨11, _⟩ => ⟨S1x1x2, .i32⟩
  | .hbm, ⟨12, _⟩ => ⟨S1x1x2, .i32⟩
  | .hbm, ⟨13, _⟩ => ⟨S1x1x2, .i32⟩
  | .hbm, ⟨14, _⟩ => ⟨S_, .i32⟩
  | .hbm, ⟨15, _⟩ => ⟨S11008x512x2, .i32⟩
  | .hbm, ⟨16, _⟩ => ⟨S11008x512x2, .i1⟩
  | .hbm, ⟨17, _⟩ => ⟨S_, .i32⟩
  | .hbm, ⟨18, _⟩ => ⟨S11008x512x2, .i32⟩
  | .hbm, ⟨19, _⟩ => ⟨S11008x512x2, .i32⟩
  | .hbm, ⟨20, _⟩ => ⟨S11008x512x2, .i32⟩
  | .hbm, ⟨21, _⟩ => ⟨S11008x512x2, .i32⟩
  | .hbm, ⟨22, _⟩ => ⟨S11008x512x2x1, .i32⟩
  | .hbm, ⟨23, _⟩ => ⟨S11008x512x2x1, .i32⟩
  | .hbm, ⟨24, _⟩ => ⟨S11008x512x2x2, .i32⟩
  | .hbm, ⟨25, _⟩ => ⟨S11008x512x2x1x8, .f32⟩
  | .hbm, ⟨26, _⟩ => ⟨S_, .f32⟩
  | .hbm, ⟨27, _⟩ => ⟨S11008x512x1x8, .f32⟩
  | .hbm, ⟨28, _⟩ => ⟨S11008x512x1x8, .f32⟩
  | .hbm, ⟨29, _⟩ => ⟨S11008x512x1x8, .f32⟩
  | .hbm, ⟨30, _⟩ => ⟨S11008x1x512x8, .f32⟩
  | .hbm, ⟨31, _⟩ => ⟨S11008x4096, .f32⟩
  | .hbm, ⟨32, _⟩ => ⟨S4x2048x11008, .f32⟩
  | .hbm, ⟨33, _⟩ => ⟨S1x1x11008, .f32⟩
  | .hbm, ⟨34, _⟩ => ⟨S4x2048x11008, .f32⟩
  | .hbm, ⟨35, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S2_S1x1x2_2 : S2.BroadcastsInDim S1x1x2 (![2] : Fin 1 → Fin S1x1x2.rank)
  bcast_S_S1x1x2 : S_.BroadcastsInDim S1x1x2 (![] : Fin 0 → Fin S1x1x2.rank)
  bcast_S_S11008x512x2 : S_.BroadcastsInDim S11008x512x2 (![] : Fin 0 → Fin S11008x512x2.rank)
  bcast_S1x1x2_S11008x512x2_0_1_2 : S1x1x2.BroadcastsInDim S11008x512x2 (![0, 1, 2] : Fin 3 → Fin S11008x512x2.rank)
  bcast_S11008x512x2_S11008x512x2x1_0_1_2 : S11008x512x2.BroadcastsInDim S11008x512x2x1 (![0, 1, 2] : Fin 3 → Fin S11008x512x2x1.rank)
  concatenates_S11008x512x2x1_S11008x512x2x1_S11008x512x2x2_d3 : Shape.Concatenates [S11008x512x2x1, S11008x512x2x1] S11008x512x2x2 3
  reducesTo_S11008x512x2x1x8_S11008x512x1x8_d2 : S11008x512x2x1x8.ReducesTo [2] S11008x512x1x8
  h_S_ : 0 < S_.numel
  bcast_S11008x1x1x1_S11008x512x1x8_0_1_2_3 : S11008x1x1x1.BroadcastsInDim S11008x512x1x8 (![0, 1, 2, 3] : Fin 4 → Fin S11008x512x1x8.rank)
  transposes_S11008x512x1x8_S11008x1x512x8_0_2_1_3 : S11008x512x1x8.Transposes [0, 2, 1, 3] S11008x1x512x8
  shapeCasts_S11008x1x512x8_S11008x4096 : S11008x1x512x8.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  gather_S2x256x1x8_S11008x512x2x2_S11008x512x2x1x8_34_01_n_n_01_3_1118_wf : GatherDims.WF S2x256x1x8 S11008x512x2x2 S11008x512x2x1x8 [3, 4] [0, 1] [] [0, 1] [] 3 ![1, 1, 1, 8]
  dot_S4x2048x4096_S11008x4096_S4x2048x11008_2_1_01_0_n_n_wf : DotDims.WF S4x2048x4096 S11008x4096 S4x2048x11008 [2] [1] [0, 1] [0] [] []

variable [Facts₀]

def gather_S2x256x1x8_S11008x512x2x2_S11008x512x2x1x8_34_01_n_n_01_3_1118 : GatherDims S2x256x1x8 S11008x512x2x2 S11008x512x2x1x8 where
  offsetDims := [3, 4]
  collapsedSliceDims := [0, 1]
  operandBatchingDims := []
  startIndicesBatchingDims := []
  startIndexMap := [0, 1]
  indexVectorDim := 3
  sliceSizes := ![1, 1, 1, 8]
  wf := gather_S2x256x1x8_S11008x512x2x2_S11008x512x2x1x8_34_01_n_n_01_3_1118_wf
def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Pieces.lean ====
/-
  The matmul kernel's body, case by case, as values.

  The grid is (row block, column block, feature block) = (8, 2, 8); the output block of a (row, column) pair stays in
  its staging buffer over the eight feature blocks. At the first feature block the body zeroes the buffer and adds the
  block product of the activations' block with the weights' block; at every later one it adds the block product to what
  the buffer held; at the last one it also adds the bias row, broadcast down the rows. Here: what each case leaves in
  the buffer, as the stores' payloads of the loaded blocks; and the three payloads read at one entry (p, q) over the
  extended reals — zero; the held entry plus the sum over the block's 512 features of activation(p, k) · weight(q, k);
  the held entry plus bias(q).
-/
import proofs.«403766_j31387620999494_3_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen

variable {F : FTy → Type} [FloatOps F]

/-- The zero offset of every load and store of the body. -/
theorem hz : (![0, 0] : Fin 2 → Nat) = fun _ => 0 := funext fun a => by fin_cases a <;> rfl

/-- A middle feature block: the buffer's contents plus the block product. -/
theorem out_B (c : Dev nD) (i : grid0.Coords) (a3 : Memref sig .tc .vmem S1024x512 .bf16) (h3 : a3.IsWhole)
    (a4 : Memref sig .tc .vmem S5504x512 .bf16) (h4 : a4.IsWhole) (a5 : Memref sig .tc .vmem S1x5504 .f32) (h5 : a5.IsWhole)
    (a6 : Memref sig .tc .vmem S1024x5504 .f32) (h6 : a6.IsWhole) (hc0 : ¬cond0_0 i) (hc1 : ¬cond0_1 i)
    (x0 : Vec F S1024x512 .bf16) (x1 : Vec F S5504x512 .bf16) (x2 : Vec F S1x5504 .f32) (xo : Vec F S1024x5504 .f32) :
    out0_B_3 c i a3 h3 a4 h4 a5 h5 a6 h6 hc0 hc1 x0 x1 x2 xo = k0_pay2 xo x0 x1 := by
  unfold out0_B_3
  rw [View.read_writes_eq_canon _ _ _ (cover0_B_3 c i a3 h3 a4 h4 a5 h5 a6 h6 hc0 hc1 x0 x1 x2 xo)]
  unfold kernelRun0_B
  dsimp only
  sl_unfold_words
  rw [View.canon_unit_zero hz]
  simp only [View.readAt_eq_ld, h3.read_unread, h4.read_unread, h5.read_unread, h6.read_unread, View.ld_unit_zero (S := S1024x5504) hz, View.ld_unit_zero (S := S1024x512) hz, View.ld_unit_zero (S := S5504x512) hz, View.ld_unit_zero (S := S1x5504) hz]

/-- The first feature block: the zero block (stored, then read back) plus the block product. -/
theorem out_A (c : Dev nD) (i : grid0.Coords) (a3 : Memref sig .tc .vmem S1024x512 .bf16) (h3 : a3.IsWhole)
    (a4 : Memref sig .tc .vmem S5504x512 .bf16) (h4 : a4.IsWhole) (a5 : Memref sig .tc .vmem S1x5504 .f32) (h5 : a5.IsWhole)
    (a6 : Memref sig .tc .vmem S1024x5504 .f32) (h6 : a6.IsWhole) (hc0 : cond0_0 i) (hc1 : ¬cond0_1 i)
    (x0 : Vec F S1024x512 .bf16) (x1 : Vec F S5504x512 .bf16) (x2 : Vec F S1x5504 .f32) :
    out0_A_3 c i a3 h3 a4 h4 a5 h5 a6 h6 hc0 hc1 x0 x1 x2 = k0_pay2 k0_pay1 x0 x1 := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S1024x5504) hz, View.readCov_unit_zero (S := S1024x5504) _ hz]
  simp only [View.readAt_eq_ld, h3.read_unread, h4.read_unread, h5.read_unread, h6.read_unread, View.ld_unit_zero (S := S1024x5504) hz, View.ld_unit_zero (S := S1024x512) hz, View.ld_unit_zero (S := S5504x512) hz, View.ld_unit_zero (S := S1x5504) hz]

/-- The last feature block: the buffer's contents plus the block product (stored, then read back), plus the bias row. -/
theorem out_C (c : Dev nD) (i : grid0.Coords) (a3 : Memref sig .tc .vmem S1024x512 .bf16) (h3 : a3.IsWhole)
    (a4 : Memref sig .tc .vmem S5504x512 .bf16) (h4 : a4.IsWhole) (a5 : Memref sig .tc .vmem S1x5504 .f32) (h5 : a5.IsWhole)
    (a6 : Memref sig .tc .vmem S1024x5504 .f32) (h6 : a6.IsWhole) (hc0 : ¬cond0_0 i) (hc1 : cond0_1 i)
    (x0 : Vec F S1024x512 .bf16) (x1 : Vec F S5504x512 .bf16) (x2 : Vec F S1x5504 .f32) (xo : Vec F S1024x5504 .f32) :
    out0_C_3 c i a3 h3 a4 h4 a5 h5 a6 h6 hc0 hc1 x0 x1 x2 xo = k0_pay3 (k0_pay2 xo x0 x1) x2 := by
  unfold out0_C_3
  rw [View.read_writes_eq_canon _ _ _ (cover0_C_3 c i a3 h3 a4 h4 a5 h5 a6 h6 hc0 hc1 x0 x1 x2 xo)]
  unfold kernelRun0_C
  dsimp only
  sl_unfold_words
  rw [View.canon_cons_unit_zero (S := S1024x5504) hz, View.readCov_unit_zero (S := S1024x5504) _ hz]
  simp only [View.readAt_eq_ld, h3.read_unread, h4.read_unread, h5.read_unread, h6.read_unread, View.ld_unit_zero (S := S1024x5504) hz, View.ld_unit_zero (S := S1024x512) hz, View.ld_unit_zero (S := S5504x512) hz, View.ld_unit_zero (S := S1x5504) hz]

/-! ## The three payloads read at an index, over the extended reals -/

/-- The block product's operand indices: the left operand at (row, feature), the right at (column, feature). -/
theorem lhs_0 (i : S1024x5504.Idx) (q : dot_S1024x512_S5504x512_S1024x5504_1_1_0_0_n_n.contr.Idx) :
    (dot_S1024x512_S5504x512_S1024x5504_1_1_0_0_n_n.lhsIdx i q 0).val = (i 0).val := by
  unfold DotDims.lhsIdx
  rw [dif_neg (show ¬(0 : Fin S1024x512.rank) ∈ dot_S1024x512_S5504x512_S1024x5504_1_1_0_0_n_n.lhsBatch by decide), dif_pos (show (0 : Fin S1024x512.rank) ∈ dot_S1024x512_S5504x512_S1024x5504_1_1_0_0_n_n.lhsNonContracting by decide)]
  rfl
theorem lhs_1 (i : S1024x5504.Idx) (q : dot_S1024x512_S5504x512_S1024x5504_1_1_0_0_n_n.contr.Idx) :
    (dot_S1024x512_S5504x512_S1024x5504_1_1_0_0_n_n.lhsIdx i q 1).val = (q ⟨0, by decide⟩).val :=
  dot_S1024x512_S5504x512_S1024x5504_1_1_0_0_n_n.lhsIdx_val_of_single rfl i q
theorem rhs_0 (i : S1024x5504.Idx) (q : dot_S1024x512_S5504x512_S1024x5504_1_1_0_0_n_n.contr.Idx) :
    (dot_S1024x512_S5504x512_S1024x5504_1_1_0_0_n_n.rhsIdx i q 0).val = (i 1).val := by
  unfold DotDims.rhsIdx
  rw [dif_neg (show ¬(0 : Fin S5504x512.rank) ∈ dot_S1024x512_S5504x512_S1024x5504_1_1_0_0_n_n.rhsBatch by decide), dif_pos (show (0 : Fin S5504x512.rank) ∈ dot_S1024x512_S5504x512_S1024x5504_1_1_0_0_n_n.rhsNonContracting by decide)]
  rfl
theorem rhs_1 (i : S1024x5504.Idx) (q : dot_S1024x512_S5504x512_S1024x5504_1_1_0_0_n_n.contr.Idx) :
    (dot_S1024x512_S5504x512_S1024x5504_1_1_0_0_n_n.rhsIdx i q 1).val = (q ⟨0, by decide⟩).val :=
  dot_S1024x512_S5504x512_S1024x5504_1_1_0_0_n_n.rhsIdx_val_of_single rfl i q

/-- The block product into a zero accumulator, at row `p` and column `q`: the sum over the block's 512 features. -/
theorem blockdot_apply (v5 : FVec Ideal S1024x512 .bf16) (v7 : FVec Ideal S5504x512 .bf16) (p : Fin 1024) (q : Fin 5504) :
    matmul dot_S1024x512_S5504x512_S1024x5504_1_1_0_0_n_n none v5 v7 (constant (F := Ideal) S1024x5504 .f32 0x00000000#32) (ix2 p q)
      = ∑ k : Fin 512, v5 (ix2 p k) * v7 (ix2 q k) := by
  refine (Ideal.matmul_constant_zero_apply dot_S1024x512_S5504x512_S1024x5504_1_1_0_0_n_n none v5 v7 (ix2 p q)).trans ?_
  rw [← Equiv.sum_comp (contrEquiv1 dot_S1024x512_S5504x512_S1024x5504_1_1_0_0_n_n 512 rfl rfl).symm]
  refine Finset.sum_congr rfl fun k _ => ?_
  have hk := contrEquiv1_symm_val dot_S1024x512_S5504x512_S1024x5504_1_1_0_0_n_n 512 rfl rfl k
  have el : dot_S1024x512_S5504x512_S1024x5504_1_1_0_0_n_n.lhsIdx (ix2 p q) ((contrEquiv1 dot_S1024x512_S5504x512_S1024x5504_1_1_0_0_n_n 512 rfl rfl).symm k) = ix2 p k := funext fun a => Fin.ext (by
    match a with
    | ⟨0, _⟩ => exact lhs_0 _ _
    | ⟨1, _⟩ => exact (lhs_1 _ _).trans hk)
  have er : dot_S1024x512_S5504x512_S1024x5504_1_1_0_0_n_n.rhsIdx (ix2 p q) ((contrEquiv1 dot_S1024x512_S5504x512_S1024x5504_1_1_0_0_n_n 512 rfl rfl).symm k) = ix2 q k := funext fun a => Fin.ext (by
    match a with
    | ⟨0, _⟩ => exact rhs_0 _ _
    | ⟨1, _⟩ => exact (rhs_1 _ _).trans hk)
  rw [el, er]

/-- The reset's payload is zero everywhere. -/
theorem pay1_apply (j : S1024x5504.Idx) : (k0_pay1 : FVec Ideal S1024x5504 .f32) j = 0 := by
  show Ideal.ofBits .f32 0x00000000#32 = 0
  exact Ideal.ofBits_zero_f32

/-- The accumulating payload: what the output block held, plus the block product. -/
theorem pay2_apply (v3 : FVec Ideal S1024x5504 .f32) (v5 : FVec Ideal S1024x512 .bf16) (v7 : FVec Ideal S5504x512 .bf16)
    (p : Fin 1024) (q : Fin 5504) :
    k0_pay2 (F := Ideal) v3 v5 v7 (ix2 p q) = v3 (ix2 p q) + ∑ k : Fin 512, v5 (ix2 p k) * v7 (ix2 q k) := by
  unfold k0_pay2
  simp only [shapeCast_self]
  exact congrArg (v3 (ix2 p q) + ·) (blockdot_apply v5 v7 p q)

/-- The closing payload: what the output block held, plus the bias row's entry of the column. -/
theorem pay3_apply (v15 : FVec Ideal S1024x5504 .f32) (v17 : FVec Ideal S1x5504 .f32) (p : Fin 1024) (q : Fin 5504) :
    k0_pay3 (F := Ideal) v15 v17 (ix2 p q) = v15 (ix2 p q) + v17 (ix2 (0 : Fin 1) q) := by
  unfold k0_pay3
  simp only [shapeCast_self]
  refine congrArg (v15 (ix2 p q) + ·) ?_
  refine (broadcastTo_apply v17 broadcasts_S1x5504_S1024x5504 (ix2 p q) (ix2 (0 : Fin 1) q) ?_).trans rfl
  intro a
  match a with
  | ⟨0, _⟩ => rfl
  | ⟨1, _⟩ => rfl

end Cert.KernelIdeal.Region

end
-- ==== Proof.Blocks.lean ====
/-
  The windows' blocks as parts of their arrays.

  Grid point t = (16·a + 8·b + k) is row block a = t / 16, column block b = t / 8 % 2, feature block k = t % 8. The
  activations' window reads rows 1024·a … and features 512·k … of the [8192, 4096] activations; the weights' window
  rows 5504·b … and features 512·k … of the [11008, 4096] weights; the bias window columns 5504·b … of the [1, 11008]
  bias row; the output window is block (a, b) of the [8192, 11008] result.
-/
import proofs.«403766_j31387620999494_3_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen

variable {F : FTy → Type} [FloatOps F]

variable (m : (ℓ : Loc nD τ sig) → Buf (Elt F) ℓ)

/-- The three input blocks at a grid point and the three input arrays as the call finds them, at their literal types. -/
abbrev xblk (c : Dev nD) (t : Fin cfg0.N) : Vec F S1024x512 .bf16 := iblk m c 0 t
abbrev wblk (c : Dev nD) (t : Fin cfg0.N) : Vec F S5504x512 .bf16 := iblk m c 1 t
abbrev bblk (c : Dev nD) (t : Fin cfg0.N) : Vec F S1x5504 .f32 := iblk m c 2 t
abbrev xarr (c : Dev nD) : Vec F S8192x4096 .bf16 := V m c main_v19
abbrev warr (c : Dev nD) : Vec F S11008x4096 .bf16 := V m c main_v17
abbrev barr (c : Dev nD) : Vec F S1x11008 .f32 := V m c main_v20

/-- The printed index maps in closed form, decided over the 128 grid points. -/
theorem idx_facts : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

/-- Entry (p, k) of the activations' block at point t. -/
theorem xblk_apply (c : Dev nD) (t : Fin cfg0.N) (p : Fin 1024) (k : Fin 512) :
    xblk m c t (ix2 p k) = xarr m c (ix2 (⟨1024 * (t.val / 16) + p.val, by have := t.isLt; have : cfg0.N = 128 := N_0; omega⟩ : Fin 8192) (⟨512 * (t.val % 8) + k.val, by omega⟩ : Fin 4096)) := by
  show iblk m c 0 t (ix2 p k) = _
  unfold iblk
  rw [View.read_apply]
  show V m c main_v19 _ = V m c main_v19 _
  congr 1
  funext a
  apply Fin.ext
  obtain ⟨e0, e1, -⟩ := idx_facts t
  match a with
  | ⟨0, _⟩ => show win0_0.index t 0 * 1024 + 1 * p.val = 1024 * (t.val / 16) + p.val; rw [e0]; omega
  | ⟨1, _⟩ => show win0_0.index t 1 * 512 + 1 * k.val = 512 * (t.val % 8) + k.val; rw [e1]; omega

/-- Entry (q, k) of the weights' block at point t. -/
theorem wblk_apply (c : Dev nD) (t : Fin cfg0.N) (q : Fin 5504) (k : Fin 512) :
    wblk m c t (ix2 q k) = warr m c (ix2 (⟨5504 * (t.val / 8 % 2) + q.val, by omega⟩ : Fin 11008) (⟨512 * (t.val % 8) + k.val, by omega⟩ : Fin 4096)) := by
  show iblk m c 1 t (ix2 q k) = _
  unfold iblk
  rw [View.read_apply]
  show V m c main_v17 _ = V m c main_v17 _
  congr 1
  funext a
  apply Fin.ext
  obtain ⟨-, -, e0, e1, -⟩ := idx_facts t
  match a with
  | ⟨0, _⟩ => show win0_1.index t 0 * 5504 + 1 * q.val = 5504 * (t.val / 8 % 2) + q.val; rw [e0]; omega
  | ⟨1, _⟩ => show win0_1.index t 1 * 512 + 1 * k.val = 512 * (t.val % 8) + k.val; rw [e1]; omega

/-- Entry q of the bias block at point t. -/
theorem bblk_apply (c : Dev nD) (t : Fin cfg0.N) (q : Fin 5504) :
    bblk m c t (ix2 (0 : Fin 1) q) = barr m c (ix2 (0 : Fin 1) (⟨5504 * (t.val / 8 % 2) + q.val, by omega⟩ : Fin 11008)) := by
  show iblk m c 2 t (ix2 (0 : Fin 1) q) = _
  unfold iblk
  rw [View.read_apply]
  show V m c main_v20 _ = V m c main_v20 _
  congr 1
  funext a
  apply Fin.ext
  obtain ⟨-, -, -, -, e0, e1, -⟩ := idx_facts t
  match a with
  | ⟨0, _⟩ => show win0_2.index t 0 * 1 + 1 * 0 = 0; rw [e0]
  | ⟨1, _⟩ => show win0_2.index t 1 * 5504 + 1 * q.val = 5504 * (t.val / 8 % 2) + q.val; rw [e1]; omega

end Cert.KernelIdeal.Region

end
-- ==== Proof.Invariant.lean ====
/-
  What the output's staging buffer holds after every grid point.

  Over the eight feature blocks of one (row block, column block) pair the buffer accumulates the block products in
  order: after feature block k it holds, at entry (p, q), the shares of blocks 0 … k of the product of activations'
  row 1024·a + p with weights' row 5504·b + q, and after the last block the bias of column 5504·b + q on top. By
  induction on the point, from the three cases' values and the windows' blocks as parts of their arrays.
-/
import proofs.«403766_j31387620999494_3_alg».proof.Proof.Pieces
import proofs.«403766_j31387620999494_3_alg».proof.Proof.Blocks

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen

variable (m : (ℓ : Loc nD τ sig) → Buf (Elt Ideal) ℓ)

/-- The three input arrays as total functions of natural coordinates (zero outside the array). -/
def xN (c : Dev nD) (r k : ℕ) : EReal :=
  if h : r < 8192 ∧ k < 4096 then xarr m c (ix2 (⟨r, h.1⟩ : Fin 8192) (⟨k, h.2⟩ : Fin 4096)) else 0
def wN (c : Dev nD) (q k : ℕ) : EReal :=
  if h : q < 11008 ∧ k < 4096 then warr m c (ix2 (⟨q, h.1⟩ : Fin 11008) (⟨k, h.2⟩ : Fin 4096)) else 0
def bN (c : Dev nD) (q : ℕ) : EReal :=
  if h : q < 11008 then barr m c (ix2 (0 : Fin 1) (⟨q, h⟩ : Fin 11008)) else 0

/-- Feature block `b`'s share of entry (r, q) of the product. -/
def blkN (c : Dev nD) (r q b : ℕ) : EReal := ∑ k : Fin 512, xN m c r (512 * b + k.val) * wN m c q (512 * b + k.val)

/-- What the output's staging buffer holds at entry (p, q) after point n: the shares of the feature blocks up to
    n % 8, and the bias once the last one is in. -/
def acc (c : Dev nD) (n p q : ℕ) : EReal :=
  (∑ b ∈ Finset.range (n % 8 + 1), blkN m c (1024 * (n / 16) + p) (5504 * (n / 8 % 2) + q) b)
    + (if n % 8 = 7 then bN m c (5504 * (n / 8 % 2) + q) else 0)

/-- The blocks' entries in natural coordinates. -/
theorem xblk_N (c : Dev nD) (t : Fin cfg0.N) (p : Fin 1024) (k : Fin 512) :
    xblk m c t (ix2 p k) = xN m c (1024 * (t.val / 16) + p.val) (512 * (t.val % 8) + k.val) := by
  have hN : t.val < 128 := lt_of_lt_of_eq t.isLt N_0
  rw [xblk_apply]; unfold xN
  rw [dif_pos (show 1024 * (t.val / 16) + p.val < 8192 ∧ 512 * (t.val % 8) + k.val < 4096 from ⟨by omega, by omega⟩)]

theorem wblk_N (c : Dev nD) (t : Fin cfg0.N) (q : Fin 5504) (k : Fin 512) :
    wblk m c t (ix2 q k) = wN m c (5504 * (t.val / 8 % 2) + q.val) (512 * (t.val % 8) + k.val) := by
  rw [wblk_apply]; unfold wN
  rw [dif_pos (show 5504 * (t.val / 8 % 2) + q.val < 11008 ∧ 512 * (t.val % 8) + k.val < 4096 from ⟨by omega, by omega⟩)]

theorem bblk_N (c : Dev nD) (t : Fin cfg0.N) (q : Fin 5504) :
    bblk m c t (ix2 (0 : Fin 1) q) = bN m c (5504 * (t.val / 8 % 2) + q.val) := by
  rw [bblk_apply]; unfold bN
  rw [dif_pos (show 5504 * (t.val / 8 % 2) + q.val < 11008 by omega)]

/-- The block product at point t, entry (p, q), is feature block t % 8's share. -/
theorem dot_N (c : Dev nD) (t : Fin cfg0.N) (p : Fin 1024) (q : Fin 5504) :
    ∑ k : Fin 512, xblk m c t (ix2 p k) * wblk m c t (ix2 q k)
      = blkN m c (1024 * (t.val / 16) + p.val) (5504 * (t.val / 8 % 2) + q.val) (t.val % 8) := by
  unfold blkN
  exact Finset.sum_congr rfl fun k _ => by rw [xblk_N, wblk_N]

/-- One point's step, case by case, at entry (p, q). -/
theorem step_A (c : Dev nD) (t : Fin cfg0.N) (h0 : t.val % 8 = 0) (h1 : ¬t.val % 8 = 7) (p : Fin 1024) (q : Fin 5504) :
    outsAt0 m c t.val t.isLt (ix2 p q) = 0 + ∑ k : Fin 512, xblk m c t (ix2 p k) * wblk m c t (ix2 q k) := by
  rw [outsAt0_A m c t h0 h1]
  refine (congrFun (out_A (F := Ideal) c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (iblk m c 2 t)) (ix2 p q)).trans ?_
  refine (pay2_apply _ _ _ p q).trans ?_
  rw [pay1_apply]

theorem step_B (c : Dev nD) (t : Fin cfg0.N) (h0 : ¬t.val % 8 = 0) (h1 : ¬t.val % 8 = 7) (p : Fin 1024) (q : Fin 5504) :
    outsAt0 m c t.val t.isLt (ix2 p q)
      = outsAt0 m c (t.val - 1) (Nat.lt_of_le_of_lt (Nat.sub_le _ _) t.isLt) (ix2 p q)
        + ∑ k : Fin 512, xblk m c t (ix2 p k) * wblk m c t (ix2 q k) := by
  rw [outsAt0_B m c t h0 h1]
  refine (congrFun (out_B (F := Ideal) c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt))) (ix2 p q)).trans ?_
  exact pay2_apply _ _ _ p q

theorem step_C (c : Dev nD) (t : Fin cfg0.N) (h0 : ¬t.val % 8 = 0) (h1 : t.val % 8 = 7) (p : Fin 1024) (q : Fin 5504) :
    outsAt0 m c t.val t.isLt (ix2 p q)
      = (outsAt0 m c (t.val - 1) (Nat.lt_of_le_of_lt (Nat.sub_le _ _) t.isLt) (ix2 p q)
        + ∑ k : Fin 512, xblk m c t (ix2 p k) * wblk m c t (ix2 q k)) + bblk m c t (ix2 (0 : Fin 1) q) := by
  rw [outsAt0_C m c t h0 h1]
  refine (congrFun (out_C (F := Ideal) c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt))) (ix2 p q)).trans ?_
  refine (pay3_apply _ _ p q).trans ?_
  exact congrArg (· + bblk m c t (ix2 (0 : Fin 1) q)) (pay2_apply _ _ _ p q)

/-- THE ACCUMULATION, by induction on the point. -/
theorem outsAt_eq (c : Dev nD) : ∀ (n : ℕ) (hn : n < cfg0.N) (p : Fin 1024) (q : Fin 5504),
    outsAt0 m c n hn (ix2 p q) = acc m c n p.val q.val
  | 0, hn, p, q => by
    refine (step_A m c ⟨0, hn⟩ rfl (show ¬(0 : ℕ) % 8 = 7 by decide) p q).trans ?_
    rw [dot_N, zero_add]
    show _ = acc m c 0 p.val q.val
    unfold acc
    simp only [Nat.zero_mod, Nat.zero_div, Finset.sum_range_one, Nat.zero_add]
    rw [if_neg (by decide), add_zero]
  | n + 1, hn, p, q => by
    have hN : n + 1 < 128 := lt_of_lt_of_eq hn N_0
    have ih := outsAt_eq c n (Nat.lt_of_succ_lt hn) p q
    by_cases h0 : (n + 1) % 8 = 0
    · have h1 : ¬(n + 1) % 8 = 7 := by omega
      refine (step_A m c ⟨n + 1, hn⟩ h0 h1 p q).trans ?_
      rw [dot_N, zero_add]
      show blkN m c (1024 * ((n + 1) / 16) + p.val) (5504 * ((n + 1) / 8 % 2) + q.val) ((n + 1) % 8) = acc m c (n + 1) p.val q.val
      unfold acc
      rw [if_neg h1, add_zero, h0, Finset.sum_range_one]
    · have e1 : n % 8 + 1 = (n + 1) % 8 := by omega
      have e2 : n / 16 = (n + 1) / 16 := by omega
      have e3 : n / 8 % 2 = (n + 1) / 8 % 2 := by omega
      have e4 : ¬n % 8 = 7 := by omega
      have ih' : outsAt0 m c n (Nat.lt_of_succ_lt hn) (ix2 p q)
          = ∑ b ∈ Finset.range ((n + 1) % 8), blkN m c (1024 * ((n + 1) / 16) + p.val) (5504 * ((n + 1) / 8 % 2) + q.val) b := by
        rw [ih]; unfold acc; rw [if_neg e4, add_zero, e1, e2, e3]
      by_cases h1 : (n + 1) % 8 = 7
      · refine (step_C m c ⟨n + 1, hn⟩ h0 h1 p q).trans ?_
        rw [dot_N, bblk_N]
        show (outsAt0 m c n _ (ix2 p q) + blkN m c (1024 * ((n + 1) / 16) + p.val) (5504 * ((n + 1) / 8 % 2) + q.val) ((n + 1) % 8))
          + bN m c (5504 * ((n + 1) / 8 % 2) + q.val) = acc m c (n + 1) p.val q.val
        rw [ih']; unfold acc
        rw [if_pos h1, Finset.sum_range_succ]
      · refine (step_B m c ⟨n + 1, hn⟩ h0 h1 p q).trans ?_
        rw [dot_N]
        show outsAt0 m c n _ (ix2 p q) + blkN m c (1024 * ((n + 1) / 16) + p.val) (5504 * ((n + 1) / 8 % 2) + q.val) ((n + 1) % 8)
          = acc m c (n + 1) p.val q.val
        rw [ih']; unfold acc
        rw [if_neg h1, add_zero, Finset.sum_range_succ]

end Cert.KernelIdeal.Region

end
-- ==== Proof.Final.lean ====
/-
  The call's result array, and the program's run read as a value.

  The output window writes its block back after the last feature block of each (row block, column block) pair; the
  sixteen written-back blocks tile the [8192, 11008] result, so the result holds, at (r, q), all eight feature blocks'
  shares of the product of activations' row r with weights' row q, plus the bias of column q. The one host operation
  after the call reshapes it to [4, 2048, 11008]: entry (b, s, o) is entry (2048·b + s, o).
-/
import proofs.«403766_j31387620999494_3_alg».proof.Proof.Invariant
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen

variable (m : (ℓ : Loc nD τ sig) → Buf (Elt Ideal) ℓ) (ρ : Dev nD → PrngReg)

/-- The call's result array [8192, 11008]: at (r, q) all eight feature blocks' shares, plus the bias of column q. -/
def G (c : Dev nD) : S8192x11008.Idx → EReal :=
  fun i => (∑ b ∈ Finset.range 8, blkN m c (i 0).val (i 1).val b) + bN m c (i 1).val

/-- What a writing-back point writes back is its block of that array. -/
theorem flushed_eq (c : Dev nD) (t : Fin cfg0.N) (hf : (cfg0.win 3).flush t = true) :
    (dats m 0 c).flushed 3 t = ((cfg0.win 3).blk t).view.read (Elt Ideal) (G m c) := by
  have h7 : t.val % 8 = 7 := (flush0_3 t).mp hf
  show (cfg0.win 3).cut (grid0.coords t) ((dats m 0 c).after 3 t) = _
  rw [after0_3]
  funext j
  obtain ⟨p, q, rfl⟩ : ∃ (p : Fin 1024) (q : Fin 5504), j = ix2 p q := ⟨j 0, j 1, eq_ix2 j⟩
  show outsAt0 m c t.val t.isLt (ix2 p q) = G m c (((cfg0.win 3).blk t).view.emb (ix2 p q))
  rw [outsAt_eq]
  obtain ⟨-, -, -, -, -, -, e0, e1⟩ := idx_facts t
  have c0 : ((((cfg0.win 3).blk t).view.emb (ix2 p q)) 0).val = 1024 * (t.val / 16) + p.val := by
    show win0_3.index t 0 * 1024 + 1 * p.val = _; rw [e0]; omega
  have c1 : ((((cfg0.win 3).blk t).view.emb (ix2 p q)) 1).val = 5504 * (t.val / 8 % 2) + q.val := by
    show win0_3.index t 1 * 5504 + 1 * q.val = _; rw [e1]; omega
  unfold G acc
  rw [c0, c1, if_pos h7, h7]

/-- An entry is in point t's output block iff each coordinate is in the block's range. -/
theorem mem_blk (t : Fin cfg0.N) (i : S8192x11008.Idx) :
    i ∈ ((cfg0.win 3).blk t).view.set ↔ ∀ a : Fin 2, win0_3.index t a * S1024x5504.size a ≤ (i a).val ∧ (i a).val < win0_3.index t a * S1024x5504.size a + S1024x5504.size a := by
  show i ∈ ((View.whole main_v21).slice (win0_3.rect t)).set ↔ _
  rw [View.set_slice_whole, Rect.mem_set_unit]
  exact Iff.rfl

/-- Every entry (r, q) lies in the block written back at the last feature block of (r / 1024, q / 5504). -/
theorem final (c : Dev nD) : (dats m 0 c).arrAt 3 cfg0.N = G m c :=
  (dats m 0 c).arrAt_eq_of_cover 3 (G m c) (flushed_eq m c) fun i => by
    have h0 : (i 0).val < 8192 := (i 0).isLt
    have h1 : (i 1).val < 11008 := (i 1).isLt
    have hN : cfg0.N = 128 := N_0
    refine ⟨⟨16 * ((i 0).val / 1024) + 8 * ((i 1).val / 5504) + 7, by omega⟩, (flush0_3 _).mpr (by show (16 * ((i 0).val / 1024) + 8 * ((i 1).val / 5504) + 7) % 8 = 7; omega), ?_⟩
    rw [mem_blk]
    obtain ⟨-, -, -, -, -, -, e0, e1⟩ := idx_facts ⟨16 * ((i 0).val / 1024) + 8 * ((i 1).val / 5504) + 7, by omega⟩
    intro a
    match a with
    | ⟨0, _⟩ =>
      show win0_3.index _ 0 * 1024 ≤ (i 0).val ∧ (i 0).val < win0_3.index _ 0 * 1024 + 1024
      rw [e0]; dsimp only; omega
    | ⟨1, _⟩ =>
      show win0_3.index _ 1 * 5504 ≤ (i 1).val ∧ (i 1).val < win0_3.index _ 1 * 5504 + 5504
      rw [e1]; dsimp only; omega

/-- The program's result buffer after the reshape that follows the call. -/
theorem tail_eq (c : Dev nD) :
    Pipeline.afterTail₀ cfgs (dats m) 0 (V0 m) [hostOps1] c main_v22
      = shapeCast S4x2048x11008 (G m c) shapeCasts_S8192x11008_S4x2048x11008 := by
  unfold Pipeline.afterTail₀
  show StableHlo.after hostOps1 _ (Proc.devRef .tc main_v22) = _
  after_results
  have e : Pipeline.withArrays (cfgs 0).spec c (V0 m c) (fun w => (dats m 0 c).arrAt w (cfgs 0).N) (Proc.tc.devRef main_v21) = G m c :=
    (Pipeline.withArrays_arr spec0 launch0.win.arr_inj c _ _ 3).trans (final m c)
  funext i
  exact congrFun (congrArg (fun a => shapeCast S4x2048x11008 a shapeCasts_S8192x11008_S4x2048x11008) e) i

/-- The reshape to [4, 2048, 11008] reads row 2048·b + s of the call's result. -/
theorem tail_apply (c : Dev nD) (b : Fin 4) (s : Fin 2048) (o : Fin 11008) :
    shapeCast S4x2048x11008 (G m c) shapeCasts_S8192x11008_S4x2048x11008 (ix3 b s o)
      = G m c (ix2 (⟨2048 * b.val + s.val, by omega⟩ : Fin 8192) o) := by
  refine shapeCast_apply (G m c) shapeCasts_S8192x11008_S4x2048x11008 (ix3 b s o) _ ?_
  rw [Shape.rowMajor_val_three, Shape.rowMajor_val_two]
  show (2048 * b.val + s.val) * 11008 + o.val = (b.val * 2048 + s.val) * 11008 + o.val
  omega

/-- THE KERNEL PROGRAM'S RUN, read: the result at the reshaped accumulated array, the arguments as launched. -/
theorem run : θ_run defs (onTc (τ := τ) (main (F := Ideal))) ⟨m, fun _ => 0, ρ⟩ fun r => ∀ c : Dev nD,
      r.2.mem ((c.tc : Thread nD τ).loc main_v22) = shapeCast S4x2048x11008 (G m c) shapeCasts_S8192x11008_S4x2048x11008
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v22 (Pipeline.mem_restRefs_of main_v22 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Region

end
-- ==== Proof.Spec.lean ====
/-
  The mathematics both programs compute, stated once over the argument arrays and imported by every other module.

  A weight matrix is stored as two code words per group of eight input features: entry (o, 8·g + j) is the sum, over the
  two code books c, of row `codes[o, g, c]` of book c at lane j, times the output row's scale. The layer's result is the
  product of the activations with that matrix, contracted over the 4096 input features, plus the bias of the output
  feature. A code word is read as a row of a 256-row book the way array indexing reads it: a negative word is
  wrapped once by the book's length, and the result is clamped into the book.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 2048, 4096]⟩
abbrev SCodes : Shape := ⟨3, ![11008, 512, 2]⟩
abbrev SBooks : Shape := ⟨4, ![2, 256, 1, 8]⟩
abbrev SScales : Shape := ⟨4, ![11008, 1, 1, 1]⟩
abbrev SBias : Shape := ⟨1, ![11008]⟩
abbrev SW : Shape := ⟨2, ![11008, 4096]⟩
abbrev SY : Shape := ⟨3, ![4, 2048, 11008]⟩

/-- A code word with a negative value wrapped once by the book's length (256). -/
def wrap (w : BitVec 32) : BitVec 32 := Scalar.select (IntOp.cmpi .slt w 0#32) (IntOp.addi w 256#32) w

/-- The row of a 256-row book a code word names: the wrapped word read signed, clamped into the book. -/
def row (w : BitVec 32) : Fin 256 := ⟨min (wrap w).toInt.toNat 255, by omega⟩

/-- The dequantized weight of output feature `o` at input feature `8·g + j`: the two books' rows at lane `j`, added,
    times the output feature's scale. -/
def weightAt (codes : IVec SCodes 32) (books : SBooks.Idx → EReal) (scales : SScales.Idx → EReal)
    (o : Fin 11008) (g : Fin 512) (j : Fin 8) : EReal :=
  (books (ix4 (0 : Fin 2) (row (codes (ix3 o g (0 : Fin 2)))) (0 : Fin 1) j)
    + books (ix4 (1 : Fin 2) (row (codes (ix3 o g (1 : Fin 2)))) (0 : Fin 1) j))
    * scales (ix4 o (0 : Fin 1) (0 : Fin 1) (0 : Fin 1))

/-- The weight matrix [11008, 4096]: column `i` is lane `i % 8` of group `i / 8`. -/
def weight (codes : IVec SCodes 32) (books : SBooks.Idx → EReal) (scales : SScales.Idx → EReal) : SW.Idx → EReal :=
  fun i => weightAt codes books scales ⟨(i 0).val, idx2_lt0 i⟩
    ⟨(i 1).val / 8, by have := idx2_lt1 i; omega⟩ ⟨(i 1).val % 8, Nat.mod_lt _ (by decide)⟩

/-- The layer: activations times the weight matrix's transpose, contracted over the 4096 input features, plus the bias. -/
def result (x : SX.Idx → EReal) (W : SW.Idx → EReal) (bias : SBias.Idx → EReal) : SY.Idx → EReal :=
  fun i => (∑ k : Fin 4096, x (ix3 (i 0) (i 1) k) * W (ix2 (i 2) k)) + bias (ix1 (i 2))

end Cert.Spec

end
-- ==== Proof.KernelValue.lean ====
/-
  The kernel program's result is the layer's result.

  The accumulated array holds, at (r, q), the eight feature blocks' shares of the product of activations' row r with
  weights' row q, plus the bias of q. Eight consecutive blocks of 512 features are the 4096 features, so the shares add
  up to the whole contraction (a regrouping of one finite sum, which the extended reals' commutative addition allows
  without any finiteness); row r = 2048·b + s of the reshaped activations is row (b, s) of the activations.
-/
import proofs.«403766_j31387620999494_3_alg».proof.Proof.Final
import proofs.«403766_j31387620999494_3_alg».proof.Proof.Spec

set_option maxRecDepth 16384

noncomputable section

open scoped BigOperators
open Idealize.ShloMosaic Idealize.ShloMosaic.TcCoe Idealize.SL.Sem Idealize.ShloMosaic.ValueIdx

namespace Cert.KernelIdeal.Region

open Cert.KernelIdeal Cert.KernelIdeal.Gen

/-- Eight consecutive blocks of 512 are the 4096 indices. -/
theorem sum_blocks (f : ℕ → EReal) :
    ∑ b ∈ Finset.range 8, ∑ k : Fin 512, f (512 * b + k.val) = ∑ k' : Fin 4096, f k'.val := by
  rw [Finset.sum_range]
  show _ = ∑ k' : Fin (8 * 512), f k'.val
  rw [← Equiv.sum_comp (finProdFinEquiv (m := 8) (n := 512)) (fun k' : Fin (8 * 512) => f k'.val)]
  rw [Fintype.sum_prod_type]
  refine Finset.sum_congr rfl fun b _ => Finset.sum_congr rfl fun k _ => ?_
  congr 1
  simp only [finProdFinEquiv_apply_val]
  omega

variable (m : (ℓ : Loc nD τ sig) → Buf (Elt Ideal) ℓ)

/-- Given what the three operands of the call hold — the activations reshaped to [8192, 4096], a weight matrix `W`, the
    bias as a row — the program's result is the layer of `x`, `W` and the bias. -/
theorem kernel_result (c : Dev nD) (x : Cert.Spec.SX.Idx → EReal) (W : Cert.Spec.SW.Idx → EReal) (bias : Cert.Spec.SBias.Idx → EReal)
    (hX : (V m c main_v19 : S8192x4096.Idx → EReal) = fun i => x (ix3 (⟨(i 0).val / 2048, by have := idx2_lt0 i; omega⟩ : Fin 4) (⟨(i 0).val % 2048, Nat.mod_lt _ (by decide)⟩ : Fin 2048) (⟨(i 1).val, idx2_lt1 i⟩ : Fin 4096)))
    (hW : (V m c main_v17 : S11008x4096.Idx → EReal) = W)
    (hB : (V m c main_v20 : S1x11008.Idx → EReal) = fun i => bias (ix1 (⟨(i 1).val, idx2_lt1 i⟩ : Fin 11008))) :
    shapeCast S4x2048x11008 (G m c) shapeCasts_S8192x11008_S4x2048x11008 = Cert.Spec.result x W bias := by
  funext i
  obtain ⟨b, s, o, rfl⟩ : ∃ (b : Fin 4) (s : Fin 2048) (o : Fin 11008), i = ix3 b s o := ⟨i 0, i 1, i 2, eq_ix3 i⟩
  rw [tail_apply]
  show (∑ b' ∈ Finset.range 8, blkN m c (2048 * b.val + s.val) o.val b') + bN m c o.val = Cert.Spec.result x W bias (ix3 b s o)
  unfold blkN
  rw [sum_blocks (fun k' => xN m c (2048 * b.val + s.val) k' * wN m c o.val k')]
  unfold Cert.Spec.result
  have hx : ∀ k : Fin 4096, xN m c (2048 * b.val + s.val) k.val = x (ix3 b s k) := fun k => by
    unfold xN
    rw [dif_pos (show 2048 * b.val + s.val < 8192 ∧ k.val < 4096 from ⟨by omega, k.isLt⟩)]
    show (V m c main_v19 : S8192x4096.Idx → EReal) _ = _
    rw [hX]
    refine congrArg x (funext fun a => Fin.ext ?_)
    match a with
    | ⟨0, _⟩ => show (2048 * b.val + s.val) / 2048 = b.val; omega
    | ⟨1, _⟩ => show (2048 * b.val + s.val) % 2048 = s.val; omega
    | ⟨2, _⟩ => rfl
  have hw : ∀ k : Fin 4096, wN m c o.val k.val = W (ix2 o k) := fun k => by
    unfold wN
    rw [dif_pos (show o.val < 11008 ∧ k.val < 4096 from ⟨o.isLt, k.isLt⟩)]
    show (V m c main_v17 : S11008x4096.Idx → EReal) _ = _
    rw [hW]
  have hb : bN m c o.val = bias (ix1 o) := by
    unfold bN
    rw [dif_pos o.isLt]
    show (V m c main_v20 : S1x11008.Idx → EReal) _ = _
    rw [hB]
  rw [hb]
  exact congrArg (· + bias (ix1 o)) (Finset.sum_congr rfl fun k _ => by rw [hx, hw])

end Cert.KernelIdeal.Region

end
-- ==== Proof.HostPrefix.lean ====
/-
  The arrays the kernel program's host lines hand to the matrix product: the dequantized weight matrix, the
  activations as a matrix of 8192 rows, and the bias as a row. Each is read index by index off the host
  operations that compute it.
-/
import proofs.«403766_j31387620999494_3_alg».proof.Proof.Gen.KernelIdeal.Frame
import proofs.«403766_j31387620999494_3_alg».proof.Proof.Spec
import Idealize.ShloMosaic.Lib.ValueIdx
import Idealize.ShloMosaic.Lib.Pipeline.Value
import Idealize.ShloMosaic.Lib.StableHlo.Run
import Idealize.ShloMosaic.Lib.StableHlo.Predicate
import Idealize.ShloMosaic.PureOps.Reduce
import Idealize.ShloMosaic.PureOps.Ideal.Laws

set_option maxRecDepth 16384

noncomputable section

namespace Cert.KernelHost

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## Words: a code word inside its book -/

/-- A code word that is non-negative and below 256 as a signed word is below 256 as a natural number. -/
theorem toNat_lt_of_cmp (w : BitVec 32) (h0 : IntOp.cmpi .sge w 0#32 = 1#1) (h1 : IntOp.cmpi .slt w 256#32 = 1#1) :
    w.toNat < 256 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e256 : (256#32 : BitVec 32).toInt = 256 := by decide
  rw [e0] at h0
  rw [e256] at h1
  rw [BitVec.toInt_eq_toNat_cond] at h0 h1
  have := w.isLt
  split at h0 <;> omega

/-- Such a word is not wrapped: it is not negative. -/
theorem wrap_eq_self (w : BitVec 32) (hw : w.toNat < 256) : Cert.Spec.wrap w = w := by
  unfold Cert.Spec.wrap
  have hn : ¬ IntOp.cmpi .slt w 0#32 = 1#1 := by
    rw [StableHlo.Predicate.slt_iff_toNat (by omega) (by decide)]
    simp
  rw [eq_zero_of_ne_one hn, select_zero]

/-- Such a word passes the range test of an indexed read: it is at least 0 and at most 255. -/
theorem mask_word (w : BitVec 32) (hw : w.toNat < 256) :
    IntOp.andi (IntOp.cmpi .sge (Cert.Spec.wrap w) 0#32) (IntOp.cmpi .sle (Cert.Spec.wrap w) 255#32) = 1#1 := by
  rw [wrap_eq_self w hw]
  have a : IntOp.cmpi .sge w 0#32 = 1#1 := (StableHlo.Predicate.sge_iff_toNat (by omega) (by decide)).mpr (by simp)
  have b : IntOp.cmpi .sle w 255#32 = 1#1 := (StableHlo.Predicate.sle_iff_toNat (by omega) (by decide)).mpr (by
    show w.toNat ≤ 255
    omega)
  rw [a, b]
  rfl

/-- A conjunction of ones, folded from one, is one. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a]
    exact foldl_andi_ones x hx l

/-- A reduction by `and` from one of an array of ones is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ## The indexed read of a book -/

/-- The dimension numbers of the read of a book `[256, 1, 8]` at a `[11008, 512, 1]` array of rows. -/
abbrev GD : GatherDims S256x1x8 S11008x512x1 S11008x512x1x8 := gather_S256x1x8_S11008x512x1_S11008x512x1x8_23_0_n_n_0_2_118

/-- The indexed read at `(o, g, z, j)`: the book's row named by the word at `(o, g, 0)`, read signed and clamped into
    the book, at `(z, j)`. -/
theorem gather_apply {α : Type} (bk : S256x1x8.Idx → α) (idx : IVec S11008x512x1 32)
    (o : Fin 11008) (g : Fin 512) (z : Fin 1) (j : Fin 8) :
    Host.gather GD bk idx (ix4 o g z j)
      = bk (ix3 (⟨min (idx (ix3 o g (0 : Fin 1))).toInt.toNat 255, by omega⟩ : Fin 256) z j) := by
  unfold Host.gather
  congr 1
  funext a
  refine Fin.ext ?_
  match a with
  | ⟨0, _⟩ =>
    show GD.start (ix4 o g z j) idx (0 : Fin 3) + GD.batchCoord (ix4 o g z j) (0 : Fin 3) + GD.offCoord (ix4 o g z j) (0 : Fin 3)
      = min (idx (ix3 o g (0 : Fin 1))).toInt.toNat 255
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ GD.startIndexMap from List.mem_singleton.mpr rfl)]
    have hsi : GD.siIdx (ix4 o g z j) ⟨List.idxOf (0 : Fin 3) GD.startIndexMap,
        List.idxOf_lt_length_iff.2 (List.mem_singleton.mpr rfl)⟩ = ix3 o g (0 : Fin 1) := by
      funext b; refine Fin.ext ?_
      match b with
      | ⟨0, _⟩ => rfl
      | ⟨1, _⟩ => rfl
      | ⟨2, _⟩ => rfl
    rw [hsi]
    rfl
  | ⟨1, _⟩ =>
    show GD.start (ix4 o g z j) idx (1 : Fin 3) + GD.batchCoord (ix4 o g z j) (1 : Fin 3) + GD.offCoord (ix4 o g z j) (1 : Fin 3)
      = z.val
    rw [GatherDims.batchCoord_eq_zero _ _ _ List.not_mem_nil]
    unfold GatherDims.start
    rw [dif_neg (show ¬ (1 : Fin 3) ∈ GD.startIndexMap by decide)]
    unfold GatherDims.offCoord
    rw [dif_pos (show (1 : Fin 3) ∈ GD.sKept by decide)]
    simp only [Nat.zero_add, Nat.add_zero]
    rfl
  | ⟨2, _⟩ =>
    show GD.start (ix4 o g z j) idx (2 : Fin 3) + GD.batchCoord (ix4 o g z j) (2 : Fin 3) + GD.offCoord (ix4 o g z j) (2 : Fin 3)
      = j.val
    rw [GatherDims.batchCoord_eq_zero _ _ _ List.not_mem_nil]
    unfold GatherDims.start
    rw [dif_neg (show ¬ (2 : Fin 3) ∈ GD.startIndexMap by decide)]
    unfold GatherDims.offCoord
    rw [dif_pos (show (2 : Fin 3) ∈ GD.sKept by decide)]
    simp only [Nat.zero_add, Nat.add_zero]
    rfl

/-! ## The host lines as one term over the argument arrays -/

/-- The code words wrapped as array indexing wraps them: a negative word is moved up by the book's length. -/
def wrapped (cd : IVec S11008x512 32) : IVec S11008x512 32 :=
  select (cmpi .slt cd (broadcastInDim S11008x512 ![] bcast_S_S11008x512 (constantI S_ 32 0#32)))
    (addi cd (broadcastInDim S11008x512 ![] bcast_S_S11008x512 (constantI S_ 32 256#32))) cd

/-- The wrapped words as start indices of the read: one index vector of length one per group. -/
def rows (cd : IVec S11008x512 32) : IVec S11008x512x1 32 :=
  broadcastInDim S11008x512x1 ![0, 1] bcast_S11008x512_S11008x512x1_0_1 (wrapped cd)

/-- Where the wrapped words are inside the book: at least 0 and at most 255, over the index vector's one component. -/
def inBook (cd : IVec S11008x512 32) : IVec S11008x512 1 :=
  Host.reduce IntOp.andi
    (andi
      (cmpi .sge (rows cd) (broadcastInDim S11008x512x1 ![] bcast_S_S11008x512x1 (constantI S_ 32 0#32)))
      (cmpi .sle (rows cd) (broadcastInDim S11008x512x1 ![0, 1, 2] bcast_S1x1x1_S11008x512x1_0_1_2
        (broadcastInDim S1x1x1 ![2] bcast_S1_S1x1x1_2 (constantI S1 32 255#32)))))
    (constantI S_ 1 1#1) reducesTo_S11008x512x1_S11008x512_d2 h_S_

/-- One book read at the code words: the book's rows where the words are inside the book, the fill value elsewhere. -/
def take (bk : FVec Ideal S256x1x8 .f32) (cd : IVec S11008x512 32) : FVec Ideal S11008x512x1x8 .f32 :=
  select (broadcastInDim S11008x512x1x8 ![0, 1] bcast_S11008x512_S11008x512x1x8_0_1 (inBook cd))
    (Host.gather GD bk (rows cd))
    (broadcastInDim S11008x512x1x8 ![] bcast_S_S11008x512x1x8 (constant (F := Ideal) S_ .f32 0x7FC00000#32))

/-- Book 0 as an array `[256, 1, 8]`. -/
def book0 (books : FVec Ideal S2x256x1x8 .f32) : FVec Ideal S256x1x8 .f32 :=
  shapeCast S256x1x8 (extractStridedSlice S1x256x1x8 ![0, 0, 0, 0] books slices_S2x256x1x8_S1x256x1x8_0_0_0_0) shapeCasts_S1x256x1x8_S256x1x8
/-- Book 1 as an array `[256, 1, 8]`. -/
def book1 (books : FVec Ideal S2x256x1x8 .f32) : FVec Ideal S256x1x8 .f32 :=
  shapeCast S256x1x8 (extractStridedSlice S1x256x1x8 ![1, 0, 0, 0] books slices_S2x256x1x8_S1x256x1x8_1_0_0_0) shapeCasts_S1x256x1x8_S256x1x8
/-- The code words for book 0 as an array `[11008, 512]`. -/
def plane0 (codes : IVec S11008x512x2 32) : IVec S11008x512 32 :=
  shapeCast S11008x512 (extractStridedSlice S11008x512x1 ![0, 0, 0] codes slices_S11008x512x2_S11008x512x1_0_0_0) shapeCasts_S11008x512x1_S11008x512
/-- The code words for book 1 as an array `[11008, 512]`. -/
def plane1 (codes : IVec S11008x512x2 32) : IVec S11008x512 32 :=
  shapeCast S11008x512 (extractStridedSlice S11008x512x1 ![0, 0, 1] codes slices_S11008x512x2_S11008x512x1_0_0_1) shapeCasts_S11008x512x1_S11008x512

/-- The dequantized groups `[11008, 512, 1, 8]`: zero plus the two books' reads, times the output feature's scale. -/
def groups (codes : IVec S11008x512x2 32) (books : FVec Ideal S2x256x1x8 .f32) (scales : FVec Ideal S11008x1x1x1 .f32) :
    FVec Ideal S11008x512x1x8 .f32 :=
  mulf
    (addf
      (addf (broadcastInDim S11008x512x1x8 ![] bcast_S_S11008x512x1x8 (constant (F := Ideal) S_ .f32 0x00000000#32))
        (take (book0 books) (plane0 codes)))
      (take (book1 books) (plane1 codes)))
    (broadcastInDim S11008x512x1x8 ![0, 1, 2, 3] bcast_S11008x1x1x1_S11008x512x1x8_0_1_2_3 scales)

/-- The weight matrix the host lines compute: the groups laid out along the input features, in the narrower format. -/
def hostWeight (codes : IVec S11008x512x2 32) (books : FVec Ideal S2x256x1x8 .f32) (scales : FVec Ideal S11008x1x1x1 .f32) :
    FVec Ideal S11008x4096 .bf16 :=
  truncf .bf16
    (shapeCast S11008x4096
      (transpose S11008x1x512x8 [0, 2, 1, 3] (groups codes books scales) transposes_S11008x512x1x8_S11008x1x512x8_0_2_1_3)
      shapeCasts_S11008x1x512x8_S11008x4096 : FVec Ideal S11008x4096 .f32)
    bitsLt_bf16_f32

/-! ## The term read at an index -/

/-- The wrapped word at a group is the specification's wrap of the code word. -/
theorem wrapped_apply (cd : IVec S11008x512 32) (y : S11008x512.Idx) : wrapped cd y = Cert.Spec.wrap (cd y) := rfl

/-- The start index at a group is the wrapped code word of the group. -/
theorem rows_apply (cd : IVec S11008x512 32) (o : Fin 11008) (g : Fin 512) (z : Fin 1) :
    rows cd (ix3 o g z) = Cert.Spec.wrap (cd (ix2 o g)) := by
  unfold rows
  refine (broadcastInDim_apply _ _ _ (ix3 o g z) (ix2 o g) fun a => ?_).trans (wrapped_apply cd _)
  match a with
  | ⟨0, _⟩ => rfl
  | ⟨1, _⟩ => rfl

/-- With every code word inside its book the range test passes at every group. -/
theorem inBook_one (cd : IVec S11008x512 32) (hcd : ∀ y, (cd y).toNat < 256) (y : S11008x512.Idx) : inBook cd y = 1#1 := by
  unfold inBook
  refine reduce_andi_ones _ _ _ _ (fun i => ?_) (fun _ => rfl) y
  obtain ⟨o, g, z, rfl⟩ : ∃ o g z, i = ix3 o g z := ⟨_, _, _, eq_ix3 i⟩
  show IntOp.andi (IntOp.cmpi .sge (rows cd (ix3 o g z)) 0#32) (IntOp.cmpi .sle (rows cd (ix3 o g z)) 255#32) = 1#1
  rw [rows_apply]
  exact mask_word _ (hcd _)

/-- One book read at the code words, at `(o, g, z, j)`: the row the group's code word names, at `(z, j)`. -/
theorem take_apply (bk : FVec Ideal S256x1x8 .f32) (cd : IVec S11008x512 32) (hcd : ∀ y, (cd y).toNat < 256)
    (o : Fin 11008) (g : Fin 512) (z : Fin 1) (j : Fin 8) :
    take bk cd (ix4 o g z j) = bk (ix3 (Cert.Spec.row (cd (ix2 o g))) z j) := by
  unfold take
  rw [select_apply]
  have hm : broadcastInDim S11008x512x1x8 ![0, 1] bcast_S11008x512_S11008x512x1x8_0_1 (inBook cd) (ix4 o g z j) = 1#1 := by
    unfold broadcastInDim
    exact inBook_one cd hcd _
  have e : (⟨min (rows cd (ix3 o g (0 : Fin 1))).toInt.toNat 255, by omega⟩ : Fin 256) = Cert.Spec.row (cd (ix2 o g)) :=
    Fin.ext (by
      show min (rows cd (ix3 o g (0 : Fin 1))).toInt.toNat 255 = min (Cert.Spec.wrap (cd (ix2 o g))).toInt.toNat 255
      rw [rows_apply])
  rw [hm, select_one, gather_apply, e]

/-- Book 0 at `(r, z, j)` is the books' array at `(0, r, z, j)`. -/
theorem book0_apply (books : FVec Ideal S2x256x1x8 .f32) (r : Fin 256) (z : Fin 1) (j : Fin 8) :
    book0 books (ix3 r z j) = books (ix4 (0 : Fin 2) r z j) := by
  unfold book0
  refine (shapeCast_apply (s := S1x256x1x8) (t := S256x1x8) _ _ (ix3 r z j) (ix4 (0 : Fin 1) r z j) ?_).trans ?_
  · rw [Shape.rowMajor_val_four, Shape.rowMajor_val_three]
    show ((0 * 256 + r.val) * 1 + z.val) * 8 + j.val = (r.val * 1 + z.val) * 8 + j.val
    omega
  · refine extractStridedSlice_apply _ _ _ _ (ix4 (0 : Fin 2) r z j) fun a => ?_
    match a with
    | ⟨0, _⟩ => rfl
    | ⟨1, _⟩ => exact (Nat.zero_add _).symm
    | ⟨2, _⟩ => exact (Nat.zero_add _).symm
    | ⟨3, _⟩ => exact (Nat.zero_add _).symm

/-- Book 1 at `(r, z, j)` is the books' array at `(1, r, z, j)`. -/
theorem book1_apply (books : FVec Ideal S2x256x1x8 .f32) (r : Fin 256) (z : Fin 1) (j : Fin 8) :
    book1 books (ix3 r z j) = books (ix4 (1 : Fin 2) r z j) := by
  unfold book1
  refine (shapeCast_apply (s := S1x256x1x8) (t := S256x1x8) _ _ (ix3 r z j) (ix4 (0 : Fin 1) r z j) ?_).trans ?_
  · rw [Shape.rowMajor_val_four, Shape.rowMajor_val_three]
    show ((0 * 256 + r.val) * 1 + z.val) * 8 + j.val = (r.val * 1 + z.val) * 8 + j.val
    omega
  · refine extractStridedSlice_apply _ _ _ _ (ix4 (1 : Fin 2) r z j) fun a => ?_
    match a with
    | ⟨0, _⟩ => rfl
    | ⟨1, _⟩ => exact (Nat.zero_add _).symm
    | ⟨2, _⟩ => exact (Nat.zero_add _).symm
    | ⟨3, _⟩ => exact (Nat.zero_add _).symm

/-- The code words for book 0 at `(o, g)` are the code words at `(o, g, 0)`. -/
theorem plane0_apply (codes : IVec S11008x512x2 32) (o : Fin 11008) (g : Fin 512) :
    plane0 codes (ix2 o g) = codes (ix3 o g (0 : Fin 2)) := by
  unfold plane0
  refine (shapeCast_apply (s := S11008x512x1) (t := S11008x512) _ _ (ix2 o g) (ix3 o g (0 : Fin 1)) ?_).trans ?_
  · rw [Shape.rowMajor_val_three, Shape.rowMajor_val_two]
    show (o.val * 512 + g.val) * 1 + 0 = o.val * 512 + g.val
    omega
  · refine extractStridedSlice_apply _ _ _ _ (ix3 o g (0 : Fin 2)) fun a => ?_
    match a with
    | ⟨0, _⟩ => exact (Nat.zero_add _).symm
    | ⟨1, _⟩ => exact (Nat.zero_add _).symm
    | ⟨2, _⟩ => rfl

/-- The code words for book 1 at `(o, g)` are the code words at `(o, g, 1)`. -/
theorem plane1_apply (codes : IVec S11008x512x2 32) (o : Fin 11008) (g : Fin 512) :
    plane1 codes (ix2 o g) = codes (ix3 o g (1 : Fin 2)) := by
  unfold plane1
  refine (shapeCast_apply (s := S11008x512x1) (t := S11008x512) _ _ (ix2 o g) (ix3 o g (0 : Fin 1)) ?_).trans ?_
  · rw [Shape.rowMajor_val_three, Shape.rowMajor_val_two]
    show (o.val * 512 + g.val) * 1 + 0 = o.val * 512 + g.val
    omega
  · refine extractStridedSlice_apply _ _ _ _ (ix3 o g (1 : Fin 2)) fun a => ?_
    match a with
    | ⟨0, _⟩ => exact (Nat.zero_add _).symm
    | ⟨1, _⟩ => exact (Nat.zero_add _).symm
    | ⟨2, _⟩ => rfl

/-- The dequantized groups at `(o, g, z, j)` are the specification's weight of output feature `o` at lane `j` of
    group `g`, when every code word is inside its book. -/
theorem groups_apply (codes : IVec S11008x512x2 32) (books : FVec Ideal S2x256x1x8 .f32) (scales : FVec Ideal S11008x1x1x1 .f32)
    (hcodes : ∀ i, (codes i).toNat < 256) (o : Fin 11008) (g : Fin 512) (z : Fin 1) (j : Fin 8) :
    groups codes books scales (ix4 o g z j) = Cert.Spec.weightAt codes books scales o g j := by
  obtain rfl : z = 0 := Subsingleton.elim _ _
  have h0 : ∀ y, (plane0 codes y).toNat < 256 := fun y => by
    obtain ⟨o', g', rfl⟩ : ∃ o' g', y = ix2 o' g' := ⟨_, _, eq_ix2 y⟩
    rw [plane0_apply]; exact hcodes _
  have h1 : ∀ y, (plane1 codes y).toNat < 256 := fun y => by
    obtain ⟨o', g', rfl⟩ : ∃ o' g', y = ix2 o' g' := ⟨_, _, eq_ix2 y⟩
    rw [plane1_apply]; exact hcodes _
  unfold groups
  rw [mulf_apply, addf_apply, addf_apply, take_apply _ _ h0, take_apply _ _ h1, book0_apply, book1_apply, plane0_apply,
    plane1_apply]
  have hz : broadcastInDim S11008x512x1x8 ![] bcast_S_S11008x512x1x8 (constant (F := Ideal) S_ .f32 0x00000000#32) (ix4 o g (0 : Fin 1) j)
      = 0 := Ideal.ofBits_zero_f32
  have hs : broadcastInDim S11008x512x1x8 ![0, 1, 2, 3] bcast_S11008x1x1x1_S11008x512x1x8_0_1_2_3 scales (ix4 o g (0 : Fin 1) j)
      = scales (ix4 o (0 : Fin 1) (0 : Fin 1) (0 : Fin 1)) := by
    refine broadcastInDim_apply _ _ _ _ (ix4 o (0 : Fin 1) (0 : Fin 1) (0 : Fin 1)) fun a => ?_
    match a with
    | ⟨0, _⟩ => rfl
    | ⟨1, _⟩ => rfl
    | ⟨2, _⟩ => rfl
    | ⟨3, _⟩ => rfl
  rw [hz, hs, zero_add]
  rfl

/-- The weight matrix the host lines compute is the specification's, when every code word is inside its book. -/
theorem hostWeight_eq (codes : IVec S11008x512x2 32) (books : FVec Ideal S2x256x1x8 .f32) (scales : FVec Ideal S11008x1x1x1 .f32)
    (hcodes : ∀ i, (codes i).toNat < 256) :
    (hostWeight codes books scales : S11008x4096.Idx → EReal) = Cert.Spec.weight codes books scales := by
  funext i
  unfold hostWeight
  rw [truncf_apply]
  refine (shapeCast_apply (s := S11008x1x512x8) (t := S11008x4096) _ _ i
    (ix4 (⟨(i 0).val, idx2_lt0 i⟩ : Fin 11008) (0 : Fin 1) (⟨(i 1).val / 8, by have := idx2_lt1 i; omega⟩ : Fin 512)
      (⟨(i 1).val % 8, Nat.mod_lt _ (by decide)⟩ : Fin 8)) ?_).trans ?_
  · rw [Shape.rowMajor_val_four, Shape.rowMajor_val_two]
    show (((i 0).val * 1 + 0) * 512 + (i 1).val / 8) * 8 + (i 1).val % 8 = (i 0).val * 4096 + (i 1).val
    omega
  · refine (transpose_apply _ _ _ _
      (ix4 (⟨(i 0).val, idx2_lt0 i⟩ : Fin 11008) (⟨(i 1).val / 8, by have := idx2_lt1 i; omega⟩ : Fin 512) (0 : Fin 1)
        (⟨(i 1).val % 8, Nat.mod_lt _ (by decide)⟩ : Fin 8)) fun b => ?_).trans ?_
    · match b with
      | ⟨0, _⟩ => rfl
      | ⟨1, _⟩ => rfl
      | ⟨2, _⟩ => rfl
      | ⟨3, _⟩ => rfl
    · exact groups_apply codes books scales hcodes _ _ _ _

/-! ## The three arrays the matrix product is handed -/

/-- The bias handed to the matrix product is the bias argument laid out as one row. -/
theorem B_eq (c : Dev nD) : (V m c main_v20 : S1x11008.Idx → EReal) = fun i => m ((c : Thread nD τ).loc main_arg4) (ix1 (⟨(i 1).val, idx2_lt1 i⟩ : Fin 11008)) := by
  have e : (V m c main_v20 : S1x11008.Idx → EReal)
      = shapeCast S1x11008 (m ((c : Thread nD τ).loc main_arg4) : S11008.Idx → EReal) shapeCasts_S11008_S1x11008 := by
    dsimp only [V, V0]
    simp only [hostOps0, hostOps0_1, hostOps0_2, hostOps0_3, hostOps0_4, List.flatten_cons, List.flatten_nil, List.append_nil, List.cons_append, List.nil_append]
    after_results
    rfl
  rw [e]
  funext i
  refine shapeCast_apply (s := S11008) (t := S1x11008) _ _ i (ix1 (⟨(i 1).val, idx2_lt1 i⟩ : Fin 11008)) ?_
  rw [Shape.rowMajor_val_one, Shape.rowMajor_val_two]
  show (i 1).val = (i 0).val * 11008 + (i 1).val
  have := idx2_lt0 i
  omega

/-- The activations handed to the matrix product are the activation argument with its two leading axes merged
    (row `2048·b + t` is row `t` of batch `b`); the change of format is the identity on extended reals. -/
theorem X_eq (c : Dev nD) : (V m c main_v19 : S8192x4096.Idx → EReal) = fun i => m ((c : Thread nD τ).loc main_arg0) (ix3 (⟨(i 0).val / 2048, by have := idx2_lt0 i; omega⟩ : Fin 4) (⟨(i 0).val % 2048, Nat.mod_lt _ (by decide)⟩ : Fin 2048) (⟨(i 1).val, idx2_lt1 i⟩ : Fin 4096)) := by
  have e : (V m c main_v19 : S8192x4096.Idx → EReal)
      = truncf .bf16 (shapeCast S8192x4096 (m ((c : Thread nD τ).loc main_arg0) : FVec Ideal S4x2048x4096 .f32) shapeCasts_S4x2048x4096_S8192x4096 : FVec Ideal S8192x4096 .f32) bitsLt_bf16_f32 := by
    dsimp only [V, V0]
    simp only [hostOps0, hostOps0_1, hostOps0_2, hostOps0_3, hostOps0_4, List.flatten_cons, List.flatten_nil, List.append_nil, List.cons_append, List.nil_append]
    after_results
    rfl
  rw [e]
  funext i
  rw [truncf_apply]
  refine shapeCast_apply (s := S4x2048x4096) (t := S8192x4096) _ _ i (ix3 (⟨(i 0).val / 2048, by have := idx2_lt0 i; omega⟩ : Fin 4) (⟨(i 0).val % 2048, Nat.mod_lt _ (by decide)⟩ : Fin 2048) (⟨(i 1).val, idx2_lt1 i⟩ : Fin 4096)) ?_
  rw [Shape.rowMajor_val_three, Shape.rowMajor_val_two]
  show ((i 0).val / 2048 * 2048 + (i 0).val % 2048) * 4096 + (i 1).val = (i 0).val * 4096 + (i 1).val
  omega

/-- A transport along an equation between a type and itself is the identity. -/
theorem cast_same {α : Type} (h : α = α) (a : α) : cast h a = a := eq_of_heq (cast_heq h a)

set_option maxHeartbeats 4000000 in
/-- The array the host lines leave for the matrix product's second operand is the host term at the argument arrays. -/
theorem W_term (c : Dev nD) : (V m c main_v17 : S11008x4096.Idx → EReal)
    = hostWeight (m ((c : Thread nD τ).loc main_arg1)) (m ((c : Thread nD τ).loc main_arg2)) (m ((c : Thread nD τ).loc main_arg3)) := by
  dsimp only [V, V0]
  simp only [hostOps0, hostOps0_1, hostOps0_2, hostOps0_3, hostOps0_4, List.flatten_cons, List.flatten_nil, List.append_nil, List.cons_append, List.nil_append]
  after_results_simp
  simp only [cast_same]
  rfl

/-- The weight matrix handed to the matrix product is the dequantized weight matrix of the specification, when every
    code word names a row of its book. -/
theorem W_eq (c : Dev nD) (hcodes : ∀ i, IntOp.cmpi .sge (m ((c : Thread nD τ).loc main_arg1) i) 0#32 = 1#1 ∧ IntOp.cmpi .slt (m ((c : Thread nD τ).loc main_arg1) i) 256#32 = 1#1) :
    (V m c main_v17 : S11008x4096.Idx → EReal) = Cert.Spec.weight (m ((c : Thread nD τ).loc main_arg1)) (m ((c : Thread nD τ).loc main_arg2)) (m ((c : Thread nD τ).loc main_arg3)) := by
  rw [W_term m c]
  exact hostWeight_eq _ _ _ fun i => toNat_lt_of_cmp _ (hcodes i).1 (hcodes i).2

end Cert.KernelHost

end
-- ==== Proof.PreDecode.lean ====
/-
  The precondition read back. Beside the finiteness of the float inputs it states that every code word is a row of a
  256-row code book: 0 ≤ code < 256, as signed words. The conjunction and the reduction over all code words are opened
  to the two comparisons at one word.
-/
import proofs.«403766_j31387620999494_3_alg».proof.Defs
import Idealize.ShloMosaic.Lib.ReduceAll
import Idealize.ShloMosaic.Lib.ValueIdx

noncomputable section

namespace Cert.PreDecode

open Idealize.ShloMosaic Idealize.SL.Sem Cert.Pre_finite_inputs

instance : Subsingleton S_.Idx := ⟨fun a b => funext fun d => d.elim0⟩

variable {F : FTy → Type} [FloatOps F] [Cert.Pre_finite_inputs.Facts]

/-- The precondition's last conjunct, read back at one code word: it lies in [0, 256) as a signed word. -/
theorem codes_in_range (a0 : FVec F S4x2048x4096 .f32) (a1 : IVec S11008x512x2 32) (a2 : FVec F S2x256x1x8 .f32)
    (a3 : FVec F S11008x1x1x1 .f32) (a4 : FVec F S11008 .f32)
    (h : Cert.Pre_finite_inputs.fn (F := F) a0 a1 a2 a3 a4 = fun _ => 1#1) (i : S11008x512x2.Idx) :
    IntOp.cmpi .sge (a1 i) 0#32 = 1#1 ∧ IntOp.cmpi .slt (a1 i) 256#32 = 1#1 := by
  have e := congrFun h ValueIdx.ix0
  unfold Cert.Pre_finite_inputs.fn Cert.Pre_finite_inputs.fn_part1 at e
  dsimp only at e
  have e2 := (IntOp.andi_eq_one.1 e).2
  have e3 := Host.reduce_andi_all _ _ _ _ _ e2 i
  exact IntOp.andi_eq_one.1 e3

end Cert.PreDecode

end
-- ==== Proof.RefSide.lean ====
/-
  The reference program read as mathematics. Its weight stage (the reshape written after the transpose of the scaled
  sum of the two gathered book rows) is the dequantized weight matrix of the specification, and its last stage is the
  layer's result. The reference normalises an index the way array indexing does: a negative word is wrapped once by
  the axis length; the gather then clamps the start index into the operand. For the book axis the index is the
  position 0 or 1 itself, for the row axis it is the code word.
-/
import proofs.«403766_j31387620999494_3_alg».proof.Proof.Gen.ReferenceIdeal.Read
import proofs.«403766_j31387620999494_3_alg».proof.Proof.Spec
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.ValueIdx

variable {F : FTy → Type} [FloatOps F]

/-! ## The two components of a start index -/

/-- The normalised position on the book axis is the position itself. -/
theorem bookIdx_apply (c : Fin 2) :
    val_main_v6 (F := F) (ix3 (0 : Fin 1) (0 : Fin 1) c) = BitVec.ofNat 32 c.val := by
  rw [val_main_v6_apply, val_main_v3_apply, val_main_v5_apply, val_main_v1_apply, val_main_v2_apply, val_main_v4_apply,
    val_main_v0_apply, val_main_c_apply, val_main_c_0_apply]
  match c with
  | ⟨0, _⟩ =>
    show Scalar.select (IntOp.cmpi .slt (BitVec.ofNat 32 0) 0#32) (IntOp.addi (BitVec.ofNat 32 0) 2#32) (BitVec.ofNat 32 0)
      = BitVec.ofNat 32 0
    decide
  | ⟨1, _⟩ =>
    show Scalar.select (IntOp.cmpi .slt (BitVec.ofNat 32 1) 0#32) (IntOp.addi (BitVec.ofNat 32 1) 2#32) (BitVec.ofNat 32 1)
      = BitVec.ofNat 32 1
    decide

/-- The normalised code word is the specification's wrapped word. -/
theorem codeIdx_apply (x1 : (⟨S11008x512x2, .i32⟩ : BufTy).Contents (Elt F)) (i : S11008x512x2.Idx) :
    val_main_v11 (F := F) x1 i = Cert.Spec.wrap (x1 i) := by
  rw [val_main_v11_apply, val_main_v8_apply, val_main_v10_apply, val_main_v7_apply, val_main_v9_apply]
  rfl

/-! ## The start indices: the two components joined on the last axis -/

/-- The joined start indices at last coordinate 0 are the first piece: the normalised book position. -/
theorem startIdx_zero (x1 : (⟨S11008x512x2, .i32⟩ : BufTy).Contents (Elt F)) (o : Fin 11008) (g : Fin 512) (c : Fin 2) :
    val_main_v15 (F := F) x1 (ix4 o g c (0 : Fin 2)) = val_main_v13 (F := F) (ix4 o g c (0 : Fin 1)) := by
  unfold val_main_v15
  exact concatenate_pair_apply_left (t := S11008x512x2x2) (s₁ := S11008x512x2x1) (s₂ := S11008x512x2x1) 3
    (val_main_v13 (F := F)) (val_main_v14 (F := F) x1) concatenates_S11008x512x2x1_S11008x512x2x1_S11008x512x2x2_d3
    (ix4 o g c (0 : Fin 2)) rfl (ix4 o g c (0 : Fin 1)) (fun b => match b with
      | ⟨0, _⟩ => rfl
      | ⟨1, _⟩ => rfl
      | ⟨2, _⟩ => rfl
      | ⟨3, _⟩ => rfl)

/-- The joined start indices at last coordinate 1 are the second piece: the normalised code word. -/
theorem startIdx_one (x1 : (⟨S11008x512x2, .i32⟩ : BufTy).Contents (Elt F)) (o : Fin 11008) (g : Fin 512) (c : Fin 2) :
    val_main_v15 (F := F) x1 (ix4 o g c (1 : Fin 2)) = val_main_v14 (F := F) x1 (ix4 o g c (0 : Fin 1)) := by
  unfold val_main_v15
  exact concatenate_pair_apply_right (t := S11008x512x2x2) (s₁ := S11008x512x2x1) (s₂ := S11008x512x2x1) 3
    (val_main_v13 (F := F)) (val_main_v14 (F := F) x1) concatenates_S11008x512x2x1_S11008x512x2x1_S11008x512x2x2_d3
    (ix4 o g c (1 : Fin 2)) rfl rfl (ix4 o g c (0 : Fin 1)) (fun b hb => match b, hb with
      | ⟨0, _⟩, _ => rfl
      | ⟨1, _⟩, _ => rfl
      | ⟨2, _⟩, _ => rfl
      | ⟨3, _⟩, hb => absurd rfl hb) rfl

/-- The first component of the start index at (o, g, c) is the book position c. -/
theorem startIdx_book (x1 : (⟨S11008x512x2, .i32⟩ : BufTy).Contents (Elt F)) (o : Fin 11008) (g : Fin 512) (c : Fin 2) :
    val_main_v15 (F := F) x1 (ix4 o g c (0 : Fin 2)) = BitVec.ofNat 32 c.val := by
  rw [startIdx_zero, val_main_v13_apply, val_main_v12_apply]
  refine (congrArg (val_main_v6 (F := F)) (funext fun a => ?_)).trans (bookIdx_apply (F := F) c)
  match a with
  | ⟨0, _⟩ => rfl
  | ⟨1, _⟩ => rfl
  | ⟨2, _⟩ => rfl

/-- The second component of the start index at (o, g, c) is the wrapped code word of that position. -/
theorem startIdx_code (x1 : (⟨S11008x512x2, .i32⟩ : BufTy).Contents (Elt F)) (o : Fin 11008) (g : Fin 512) (c : Fin 2) :
    val_main_v15 (F := F) x1 (ix4 o g c (1 : Fin 2)) = Cert.Spec.wrap (x1 (ix3 o g c)) := by
  rw [startIdx_one, val_main_v14_apply, codeIdx_apply]
  refine congrArg (fun i => Cert.Spec.wrap (x1 i)) (funext fun a => ?_)
  match a with
  | ⟨0, _⟩ => rfl
  | ⟨1, _⟩ => rfl
  | ⟨2, _⟩ => rfl

/-! ## The gather, one operand axis at a time

  The gather's start index has two components, for the operand's book axis and row axis, both collapsed; the other two
  operand axes are offset axes read off the result's last two coordinates. -/

/-- Where the gather at result index (o, g, c, 0, j) reads component `p` of its start index: (o, g, c, p). -/
theorem startAt (o : Fin 11008) (g : Fin 512) (c : Fin 2) (j : Fin 8) (n : Nat)
    (hn : n < gather_S2x256x1x8_S11008x512x2x2_S11008x512x2x1x8_34_01_n_n_01_3_1118.startIndexMap.length)
    (p : Fin 2) (hp : n = p.val) :
    gather_S2x256x1x8_S11008x512x2x2_S11008x512x2x1x8_34_01_n_n_01_3_1118.siIdx (ix5 o g c (0 : Fin 1) j) ⟨n, hn⟩
      = ix4 o g c p := by
  subst hp
  funext b
  refine Fin.ext ?_
  match b with
  | ⟨0, _⟩ => rfl
  | ⟨1, _⟩ => rfl
  | ⟨2, _⟩ => rfl
  | ⟨3, _⟩ => rfl

/-- On the book axis the gather reads the first start-index component, clamped into the two books. -/
theorem gather_axis0 (idx : IVec S11008x512x2x2 32) (o : Fin 11008) (g : Fin 512) (c : Fin 2) (j : Fin 8) :
    (gather_S2x256x1x8_S11008x512x2x2_S11008x512x2x1x8_34_01_n_n_01_3_1118.operandIdx (ix5 o g c (0 : Fin 1) j) idx 0).val
      = min (idx (ix4 o g c (0 : Fin 2))).toInt.toNat 1 := by
  show gather_S2x256x1x8_S11008x512x2x2_S11008x512x2x1x8_34_01_n_n_01_3_1118.start _ idx 0
    + gather_S2x256x1x8_S11008x512x2x2_S11008x512x2x1x8_34_01_n_n_01_3_1118.batchCoord _ 0
    + gather_S2x256x1x8_S11008x512x2x2_S11008x512x2x1x8_34_01_n_n_01_3_1118.offCoord _ 0 = _
  rw [GatherDims.batchCoord_eq_zero _ _ _ List.not_mem_nil,
    GatherDims.offCoord_eq_zero _ _ _ (show ¬(0 : Fin S2x256x1x8.rank) ∈ gather_S2x256x1x8_S11008x512x2x2_S11008x512x2x1x8_34_01_n_n_01_3_1118.sKept by decide)]
  unfold GatherDims.start
  rw [dif_pos (show (0 : Fin S2x256x1x8.rank) ∈ gather_S2x256x1x8_S11008x512x2x2_S11008x512x2x1x8_34_01_n_n_01_3_1118.startIndexMap by decide)]
  have hsi : gather_S2x256x1x8_S11008x512x2x2_S11008x512x2x1x8_34_01_n_n_01_3_1118.siIdx (ix5 o g c (0 : Fin 1) j)
      ⟨List.idxOf (0 : Fin S2x256x1x8.rank) gather_S2x256x1x8_S11008x512x2x2_S11008x512x2x1x8_34_01_n_n_01_3_1118.startIndexMap,
        List.idxOf_lt_length_iff.2 (by decide)⟩ = ix4 o g c (0 : Fin 2) := startAt o g c j _ _ 0 (by decide)
  rw [hsi]
  rfl

/-- On the row axis the gather reads the second start-index component, clamped into the 256 rows. -/
theorem gather_axis1 (idx : IVec S11008x512x2x2 32) (o : Fin 11008) (g : Fin 512) (c : Fin 2) (j : Fin 8) :
    (gather_S2x256x1x8_S11008x512x2x2_S11008x512x2x1x8_34_01_n_n_01_3_1118.operandIdx (ix5 o g c (0 : Fin 1) j) idx 1).val
      = min (idx (ix4 o g c (1 : Fin 2))).toInt.toNat 255 := by
  show gather_S2x256x1x8_S11008x512x2x2_S11008x512x2x1x8_34_01_n_n_01_3_1118.start _ idx 1
    + gather_S2x256x1x8_S11008x512x2x2_S11008x512x2x1x8_34_01_n_n_01_3_1118.batchCoord _ 1
    + gather_S2x256x1x8_S11008x512x2x2_S11008x512x2x1x8_34_01_n_n_01_3_1118.offCoord _ 1 = _
  rw [GatherDims.batchCoord_eq_zero _ _ _ List.not_mem_nil,
    GatherDims.offCoord_eq_zero _ _ _ (show ¬(1 : Fin S2x256x1x8.rank) ∈ gather_S2x256x1x8_S11008x512x2x2_S11008x512x2x1x8_34_01_n_n_01_3_1118.sKept by decide)]
  unfold GatherDims.start
  rw [dif_pos (show (1 : Fin S2x256x1x8.rank) ∈ gather_S2x256x1x8_S11008x512x2x2_S11008x512x2x1x8_34_01_n_n_01_3_1118.startIndexMap by decide)]
  have hsi : gather_S2x256x1x8_S11008x512x2x2_S11008x512x2x1x8_34_01_n_n_01_3_1118.siIdx (ix5 o g c (0 : Fin 1) j)
      ⟨List.idxOf (1 : Fin S2x256x1x8.rank) gather_S2x256x1x8_S11008x512x2x2_S11008x512x2x1x8_34_01_n_n_01_3_1118.startIndexMap,
        List.idxOf_lt_length_iff.2 (by decide)⟩ = ix4 o g c (1 : Fin 2) := startAt o g c j _ _ 1 (by decide)
  rw [hsi]
  rfl

/-- The unit operand axis is an offset axis with no start component: the result's fourth coordinate, 0. -/
theorem gather_axis2 (idx : IVec S11008x512x2x2 32) (o : Fin 11008) (g : Fin 512) (c : Fin 2) (j : Fin 8) :
    (gather_S2x256x1x8_S11008x512x2x2_S11008x512x2x1x8_34_01_n_n_01_3_1118.operandIdx (ix5 o g c (0 : Fin 1) j) idx 2).val = 0 := by
  show gather_S2x256x1x8_S11008x512x2x2_S11008x512x2x1x8_34_01_n_n_01_3_1118.start _ idx 2
    + gather_S2x256x1x8_S11008x512x2x2_S11008x512x2x1x8_34_01_n_n_01_3_1118.batchCoord _ 2
    + gather_S2x256x1x8_S11008x512x2x2_S11008x512x2x1x8_34_01_n_n_01_3_1118.offCoord _ 2 = _
  rw [GatherDims.batchCoord_eq_zero _ _ _ List.not_mem_nil]
  unfold GatherDims.start GatherDims.offCoord
  rw [dif_neg (show ¬(2 : Fin S2x256x1x8.rank) ∈ gather_S2x256x1x8_S11008x512x2x2_S11008x512x2x1x8_34_01_n_n_01_3_1118.startIndexMap by decide),
    dif_pos (show (2 : Fin S2x256x1x8.rank) ∈ gather_S2x256x1x8_S11008x512x2x2_S11008x512x2x1x8_34_01_n_n_01_3_1118.sKept by decide)]
  rfl

/-- The lane axis is an offset axis with no start component: the result's last coordinate. -/
theorem gather_axis3 (idx : IVec S11008x512x2x2 32) (o : Fin 11008) (g : Fin 512) (c : Fin 2) (j : Fin 8) :
    (gather_S2x256x1x8_S11008x512x2x2_S11008x512x2x1x8_34_01_n_n_01_3_1118.operandIdx (ix5 o g c (0 : Fin 1) j) idx 3).val = j.val := by
  show gather_S2x256x1x8_S11008x512x2x2_S11008x512x2x1x8_34_01_n_n_01_3_1118.start _ idx 3
    + gather_S2x256x1x8_S11008x512x2x2_S11008x512x2x1x8_34_01_n_n_01_3_1118.batchCoord _ 3
    + gather_S2x256x1x8_S11008x512x2x2_S11008x512x2x1x8_34_01_n_n_01_3_1118.offCoord _ 3 = _
  rw [GatherDims.batchCoord_eq_zero _ _ _ List.not_mem_nil]
  unfold GatherDims.start GatherDims.offCoord
  rw [dif_neg (show ¬(3 : Fin S2x256x1x8.rank) ∈ gather_S2x256x1x8_S11008x512x2x2_S11008x512x2x1x8_34_01_n_n_01_3_1118.startIndexMap by decide),
    dif_pos (show (3 : Fin S2x256x1x8.rank) ∈ gather_S2x256x1x8_S11008x512x2x2_S11008x512x2x1x8_34_01_n_n_01_3_1118.sKept by decide)]
  show 0 + 0 + j.val = j.val
  omega

/-- The gather at (o, g, c, 0, j): the operand at the clamped start index, the unit coordinate, lane j. -/
theorem gather_apply {α : Type} (x : S2x256x1x8.Idx → α) (idx : IVec S11008x512x2x2 32)
    (o : Fin 11008) (g : Fin 512) (c : Fin 2) (j : Fin 8) :
    Host.gather gather_S2x256x1x8_S11008x512x2x2_S11008x512x2x1x8_34_01_n_n_01_3_1118 x idx (ix5 o g c (0 : Fin 1) j)
      = x (ix4 (⟨min (idx (ix4 o g c (0 : Fin 2))).toInt.toNat 1, by omega⟩ : Fin 2)
          (⟨min (idx (ix4 o g c (1 : Fin 2))).toInt.toNat 255, by omega⟩ : Fin 256) (0 : Fin 1) j) := by
  unfold Host.gather
  refine congrArg x (funext fun a => Fin.ext ?_)
  match a with
  | ⟨0, _⟩ => exact gather_axis0 idx o g c j
  | ⟨1, _⟩ => exact gather_axis1 idx o g c j
  | ⟨2, _⟩ => exact gather_axis2 idx o g c j
  | ⟨3, _⟩ => exact gather_axis3 idx o g c j

/-! ## From the gathered rows to the weight matrix -/

/-- A book position read signed and clamped into the two books is itself. -/
theorem clamp_book (c : Fin 2) : min (BitVec.ofNat 32 c.val).toInt.toNat 1 = c.val := by
  match c with
  | ⟨0, _⟩ => show min (BitVec.ofNat 32 0).toInt.toNat 1 = 0; decide
  | ⟨1, _⟩ => show min (BitVec.ofNat 32 1).toInt.toNat 1 = 1; decide

/-- The gathered array at (o, g, c, 0, j): book c, at the row its code word names, lane j. -/
theorem gathered_apply (x1 : (⟨S11008x512x2, .i32⟩ : BufTy).Contents (Elt F)) (x2 : (⟨S2x256x1x8, .f32⟩ : BufTy).Contents (Elt F))
    (o : Fin 11008) (g : Fin 512) (c : Fin 2) (j : Fin 8) :
    val_main_v16 (F := F) x1 x2 (ix5 o g c (0 : Fin 1) j)
      = x2 (ix4 c (Cert.Spec.row (x1 (ix3 o g c))) (0 : Fin 1) j) := by
  unfold val_main_v16
  rw [gather_apply]
  refine congrArg x2 (funext fun a => Fin.ext ?_)
  match a with
  | ⟨0, _⟩ =>
    show min (val_main_v15 (F := F) x1 (ix4 o g c (0 : Fin 2))).toInt.toNat 1 = c.val
    rw [startIdx_book]
    exact clamp_book c
  | ⟨1, _⟩ =>
    show min (val_main_v15 (F := F) x1 (ix4 o g c (1 : Fin 2))).toInt.toNat 255 = (Cert.Spec.row (x1 (ix3 o g c))).val
    rw [startIdx_code]
    rfl
  | ⟨2, _⟩ => rfl
  | ⟨3, _⟩ => rfl

/-- The sum over the two books at (o, g, 0, j). -/
theorem summed_apply (x1 : (⟨S11008x512x2, .i32⟩ : BufTy).Contents (Elt Ideal)) (x2 : (⟨S2x256x1x8, .f32⟩ : BufTy).Contents (Elt Ideal))
    (o : Fin 11008) (g : Fin 512) (j : Fin 8) :
    val_main_v17 (F := Ideal) x1 x2 (ix4 o g (0 : Fin 1) j)
      = x2 (ix4 (0 : Fin 2) (Cert.Spec.row (x1 (ix3 o g (0 : Fin 2)))) (0 : Fin 1) j)
        + x2 (ix4 (1 : Fin 2) (Cert.Spec.row (x1 (ix3 o g (1 : Fin 2)))) (0 : Fin 1) j) := by
  have e0 : idx_main_v17 (ix4 o g (0 : Fin 1) j) (0 : Fin 2) = ix5 o g (0 : Fin 2) (0 : Fin 1) j := funext fun a =>
    match a with
    | ⟨0, _⟩ => rfl
    | ⟨1, _⟩ => rfl
    | ⟨2, _⟩ => rfl
    | ⟨3, _⟩ => rfl
    | ⟨4, _⟩ => rfl
  have e1 : idx_main_v17 (ix4 o g (0 : Fin 1) j) (1 : Fin 2) = ix5 o g (1 : Fin 2) (0 : Fin 1) j := funext fun a =>
    match a with
    | ⟨0, _⟩ => rfl
    | ⟨1, _⟩ => rfl
    | ⟨2, _⟩ => rfl
    | ⟨3, _⟩ => rfl
    | ⟨4, _⟩ => rfl
  rw [val_main_v17_apply, Fin.sum_univ_two, e0, e1, gathered_apply, gathered_apply, val_main_cst_apply]
  show Ideal.ofBits .f32 0x00000000#32 + _ = _
  rw [Ideal.ofBits_zero_f32, zero_add]

/-- The scaled sum at (o, g, 0, j) is the specification's weight entry. -/
theorem scaled_apply (x1 : (⟨S11008x512x2, .i32⟩ : BufTy).Contents (Elt Ideal)) (x2 : (⟨S2x256x1x8, .f32⟩ : BufTy).Contents (Elt Ideal))
    (x3 : (⟨S11008x1x1x1, .f32⟩ : BufTy).Contents (Elt Ideal)) (o : Fin 11008) (g : Fin 512) (j : Fin 8) :
    val_main_v19 (F := Ideal) x1 x2 x3 (ix4 o g (0 : Fin 1) j) = Cert.Spec.weightAt x1 x2 x3 o g j := by
  have e : idx_main_v18 (ix4 o g (0 : Fin 1) j) = ix4 o (0 : Fin 1) (0 : Fin 1) (0 : Fin 1) := funext fun a =>
    match a with
    | ⟨0, _⟩ => rfl
    | ⟨1, _⟩ => rfl
    | ⟨2, _⟩ => rfl
    | ⟨3, _⟩ => rfl
  rw [val_main_v19_apply, summed_apply, val_main_v18_apply, e]
  rfl

/-- The reference's weight stage is the specification's weight matrix. -/
theorem weight_eq (x1 : (⟨S11008x512x2, .i32⟩ : BufTy).Contents (Elt Ideal)) (x2 : (⟨S2x256x1x8, .f32⟩ : BufTy).Contents (Elt Ideal))
    (x3 : (⟨S11008x1x1x1, .f32⟩ : BufTy).Contents (Elt Ideal)) :
    val_main_v21 (F := Ideal) x1 x2 x3 = Cert.Spec.weight x1 x2 x3 := by
  funext i
  have h0 : (i 0).val < 11008 := (i 0).isLt
  have h1 : (i 1).val < 4096 := (i 1).isLt
  have e : idx_main_v20 (idx_main_v21 i)
      = ix4 (⟨(i 0).val, idx2_lt0 i⟩ : Fin 11008) (⟨(i 1).val / 8, by have := idx2_lt1 i; omega⟩ : Fin 512) (0 : Fin 1)
          (⟨(i 1).val % 8, Nat.mod_lt _ (by decide)⟩ : Fin 8) := funext fun a => Fin.ext (by
    match a with
    | ⟨0, _⟩ => show ((i 0).val * 4096 + (i 1).val) / 4096 = (i 0).val; omega
    | ⟨1, _⟩ => show ((i 0).val * 4096 + (i 1).val) / 8 % 512 = (i 1).val / 8; omega
    | ⟨2, _⟩ => rfl
    | ⟨3, _⟩ => show ((i 0).val * 4096 + (i 1).val) % 8 = (i 1).val % 8; omega)
  rw [val_main_v21_apply, val_main_v20_apply, e, scaled_apply]
  rfl

/-- The reference's last stage is the layer's result over the specification's weight matrix. -/
theorem result_eq (x0 : (⟨S4x2048x4096, .f32⟩ : BufTy).Contents (Elt Ideal)) (x1 : (⟨S11008x512x2, .i32⟩ : BufTy).Contents (Elt Ideal))
    (x2 : (⟨S2x256x1x8, .f32⟩ : BufTy).Contents (Elt Ideal)) (x3 : (⟨S11008x1x1x1, .f32⟩ : BufTy).Contents (Elt Ideal))
    (x4 : (⟨S11008, .f32⟩ : BufTy).Contents (Elt Ideal)) :
    val_main_v25 (F := Ideal) x0 x1 x2 x3 x4 = Cert.Spec.result x0 (Cert.Spec.weight x1 x2 x3) x4 := by
  funext i
  have el : ∀ k : Fin 4096, lidx_main_v22 i k = ix3 (i 0) (i 1) k := fun k => funext fun a =>
    match a with
    | ⟨0, _⟩ => rfl
    | ⟨1, _⟩ => rfl
    | ⟨2, _⟩ => rfl
  have er : ∀ k : Fin 4096, ridx_main_v22 i k = ix2 (i 2) k := fun k => funext fun a =>
    match a with
    | ⟨0, _⟩ => rfl
    | ⟨1, _⟩ => rfl
  have eb : idx_main_v23 (idx_main_v24 i) = ix1 (i 2) := funext fun a =>
    match a with
    | ⟨0, _⟩ => rfl
  rw [val_main_v25_apply, val_main_v22_apply, val_main_v24_apply, val_main_v23_apply, eb, weight_eq]
  show (∑ k : Fin 4096, x0 (lidx_main_v22 i k) * Cert.Spec.weight x1 x2 x3 (ridx_main_v22 i k)) + x4 (ix1 (i 2)) = _
  simp only [el, er]
  rfl

end Cert.RefSide

end
-- ==== Proof.lean ====
/-
  The certificate of a code-book-quantized linear layer: y = x · Wᵀ + bias with W[o, 8g + j] = (books[0, codes[o, g, 0], 0, j]
  + books[1, codes[o, g, 1], 0, j]) · scales[o].

  The kernel program dequantizes W on the host with one table lookup per book (an out-of-range code word would read
  a fill value there), then multiplies in one call over a (row block, column block, feature block) grid, accumulating
  the block products in the output block and adding the bias after the last feature block. The reference looks both
  books up in one gather (which clamps an out-of-range word instead), sums over the book axis, and contracts all 4096
  features at once. Under the precondition — finite float inputs, and every code word a row of its 256-row book — both
  compute the function of Proof/Spec.lean: on words in range neither the fill nor the clamp is reached, the two
  lookups read the same rows, and eight blocks of 512 features are the 4096 features, a regrouping of a finite sum
  that the extended reals' addition allows.

  The kernel side: Proof/Pieces.lean (the body's three cases as values), Proof/Blocks.lean (the windows' blocks),
  Proof/Invariant.lean (the accumulation, by induction on the grid point), Proof/Final.lean (the result array and the
  run), Proof/KernelValue.lean (it is the layer), Proof/HostPrefix.lean (what the call's operands hold). The reference
  side: Proof/RefSide.lean over its generated run. Proof/PreDecode.lean reads the code words' range off the
  precondition.
-/
import proofs.«403766_j31387620999494_3_alg».proof.Defs
import proofs.«403766_j31387620999494_3_alg».proof.Proof.Gen.Kernel
import proofs.«403766_j31387620999494_3_alg».proof.Proof.Gen.Kernel.Skeleton
import proofs.«403766_j31387620999494_3_alg».proof.Proof.Gen.Kernel.Launch
import proofs.«403766_j31387620999494_3_alg».proof.Proof.Gen.Kernel.Points
import proofs.«403766_j31387620999494_3_alg».proof.Proof.Gen.Kernel.Frame
import proofs.«403766_j31387620999494_3_alg».proof.Proof.Gen.KernelIdeal
import proofs.«403766_j31387620999494_3_alg».proof.Proof.Gen.KernelIdeal.Skeleton
import proofs.«403766_j31387620999494_3_alg».proof.Proof.Gen.KernelIdeal.Launch
import proofs.«403766_j31387620999494_3_alg».proof.Proof.Gen.KernelIdeal.Points
import proofs.«403766_j31387620999494_3_alg».proof.Proof.Gen.KernelIdeal.Frame
import proofs.«403766_j31387620999494_3_alg».proof.Proof.Gen.ReferenceIdeal
import proofs.«403766_j31387620999494_3_alg».proof.Proof.Gen.Pre_finite_inputs
import proofs.«403766_j31387620999494_3_alg».proof.Proof.Gen.ReferenceIdeal.Run
import proofs.«403766_j31387620999494_3_alg».proof.Proof.Gen.ReferenceIdeal.Read
import proofs.«403766_j31387620999494_3_alg».proof.Proof.KernelValue
import proofs.«403766_j31387620999494_3_alg».proof.Proof.HostPrefix
import proofs.«403766_j31387620999494_3_alg».proof.Proof.PreDecode
import proofs.«403766_j31387620999494_3_alg».proof.Proof.RefSide
import Idealize.ShloMosaic.Adequacy
import Idealize.ShloMosaic.Init

noncomputable section

namespace Cert.Proof

open Idealize.ShloMosaic Idealize.SL.Sem

/-- The three programs run and leave their arguments as launched: the two kernel programs by their generated frames,
    the reference by its generated run. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories agreeing on the arguments and with every code word in [0, 256), both
    programs end with the layer's result of Proof/Spec.lean. -/
theorem algebraic : Cert.algebraic_KernelIdeal_ReferenceIdeal := by
  intro m ρ m' ρ' hpre hagree
  have hcodes : ∀ (c : Dev Cert.KernelIdeal.nD) (i : Cert.KernelIdeal.S11008x512x2.Idx),
      IntOp.cmpi .sge (m ((c.tc : Thread Cert.KernelIdeal.nD Cert.KernelIdeal.τ).loc Cert.KernelIdeal.main_arg1) i) 0#32 = 1#1
      ∧ IntOp.cmpi .slt (m ((c.tc : Thread Cert.KernelIdeal.nD Cert.KernelIdeal.τ).loc Cert.KernelIdeal.main_arg1) i) 256#32 = 1#1 :=
    fun c i => Cert.PreDecode.codes_in_range _ _ _ _ _ (hpre c) i
  refine ⟨fun c => Cert.Spec.result (m ((c.tc : Thread Cert.KernelIdeal.nD Cert.KernelIdeal.τ).loc Cert.KernelIdeal.main_arg0))
      (Cert.Spec.weight (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩) (Cert.KernelIdeal.Region.run m ρ)
    exact Cert.KernelIdeal.Region.kernel_result m c _ _ _ (Cert.KernelHost.X_eq m c) (Cert.KernelHost.W_eq m c (hcodes c))
      (Cert.KernelHost.B_eq m c)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v25_eq _ _ _ _ _).trans (Cert.RefSide.result_eq _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
